-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x128 : Shape := ⟨2, ![65536, 128]⟩
abbrev S256x1024 : Shape := ⟨2, ![256, 1024]⟩
abbrev S1024 : Shape := ⟨1, ![1024]⟩
abbrev S1024x1024 : Shape := ⟨2, ![1024, 1024]⟩
abbrev S1024x128 : Shape := ⟨2, ![1024, 128]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S1024x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x128 .f32 := Host.absf main_arg8
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x128 .f32) (main_arg7 : FVec F S128 .f32) (main_arg8 : FVec F S1024x128 .f32) (main_arg9 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x256 .f32) (main_arg1 : FVec F S65536x128 .f32) (main_arg2 : FVec F S256x1024 .f32) (main_arg3 : FVec F S1024 .f32) (main_arg4 : FVec F S1024x1024 .f32) (main_arg5 : FVec F S1024 .f32) (main_arg6 : FVec F S1024x128 .f32) (main_arg7 : FVec F S128 .f32) (main_arg8 : FVec F S1024x128 .f32) (main_arg9 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S65536x256 : Shape := ⟨2, ![65536, 256]⟩
abbrev S65536x128 : Shape := ⟨2, ![65536, 128]⟩
abbrev S256x1024 : Shape := ⟨2, ![256, 1024]⟩
abbrev S1024 : Shape := ⟨1, ![1024]⟩
abbrev S1024x1024 : Shape := ⟨2, ![1024, 1024]⟩
abbrev S1024x128 : Shape := ⟨2, ![1024, 128]⟩
abbrev S128 : Shape := ⟨1, ![128]⟩
abbrev S65536x128x2 : Shape := ⟨3, ![65536, 128, 2]⟩
abbrev S65536x128x1 : Shape := ⟨3, ![65536, 128, 1]⟩
abbrev S1x1024 : Shape := ⟨2, ![1, 1024]⟩
abbrev S1x128 : Shape := ⟨2, ![1, 128]⟩
abbrev S65536x1 : Shape := ⟨2, ![65536, 1]⟩
abbrev S1024x256 : Shape := ⟨2, ![1024, 256]⟩
abbrev S1024x1 : Shape := ⟨2, ![1024, 1]⟩
abbrev S65536 : Shape := ⟨1, ![65536]⟩

abbrev nBuf : Space → Nat
  | .hbm => 31
  | .vmem => 16
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S1024x128, .f32⟩
  | .hbm, ⟨9, _⟩ => ⟨S128, .f32⟩
  | .hbm, ⟨10, _⟩ => ⟨S65536x128x2, .f32⟩
  | .hbm, ⟨11, _⟩ => ⟨S65536x128x1, .f32⟩
  | .hbm, ⟨12, _⟩ => ⟨S65536x128, .f32⟩
  | .hbm, ⟨13, _⟩ => ⟨S65536x128x1, .f32⟩
  | .hbm, ⟨14, _⟩ => ⟨S65536x128, .f32⟩
  | .hbm, ⟨15, _⟩ => ⟨S65536x256, .f32⟩
  | .hbm, ⟨16, _⟩ => ⟨S256x1024, .bf16⟩
  | .hbm, ⟨17, _⟩ => ⟨S1024x1024, .bf16⟩
  | .hbm, ⟨18, _⟩ => ⟨S1024x128, .bf16⟩
  | .hbm, ⟨19, _⟩ => ⟨S1024x128, .bf16⟩
  | .hbm, ⟨20, _⟩ => ⟨S1x1024, .f32⟩
  | .hbm, ⟨21, _⟩ => ⟨S1x1024, .f32⟩
  | .hbm, ⟨22, _⟩ => ⟨S1x128, .f32⟩
  | .hbm, ⟨23, _⟩ => ⟨S1x128, .f32⟩
  | .hbm, ⟨24, _⟩ => ⟨S65536x128, .f32⟩
  | .hbm, ⟨25, _⟩ => ⟨S65536x1, .f32⟩
  | .hbm, ⟨26, _⟩ => ⟨S65536x128x1, .f32⟩
  | .hbm, ⟨27, _⟩ => ⟨S65536x128x1, .f32⟩
  | .hbm, ⟨28, _⟩ => ⟨S65536x128x2, .f32⟩
  | .hbm, ⟨29, _⟩ => ⟨S65536x256, .f32⟩
  | .hbm, ⟨30, _⟩ => ⟨S65536, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S256x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1x128, .f32⟩
  | .local _ .vmem, ⟨10, _⟩ => ⟨S1024x128, .bf16⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S65536x256_S65536x128x2 : S65536x256.ShapeCasts S65536x128x2
  slices_S65536x128x2_S65536x128x1_0_0_0 : S65536x128x2.Slices ![0, 0, 0] S65536x128x1
  shapeCasts_S65536x128x1_S65536x128 : S65536x128x1.ShapeCasts S65536x128
  slices_S65536x128x2_S65536x128x1_0_0_1 : S65536x128x2.Slices ![0, 0, 1] S65536x128x1
  concatenates_S65536x128_S65536x128_S65536x256_d1 : Shape.Concatenates [S65536x128, S65536x128] S65536x256 1
  bitsLt_bf16_f32 : FTy.bits .bf16 < FTy.bits .f32
  shapeCasts_S1024_S1x1024 : S1024.ShapeCasts S1x1024
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  bcast_S65536x128_S65536x128x1_0_1 : S65536x128.BroadcastsInDim S65536x128x1 (![0, 1] : Fin 2 → Fin S65536x128x1.rank)
  concatenates_S65536x128x1_S65536x128x1_S65536x128x2_d2 : Shape.Concatenates [S65536x128x1, S65536x128x1] S65536x128x2 2
  shapeCasts_S65536x128x2_S65536x256 : S65536x128x2.ShapeCasts S65536x256
  shapeCasts_S65536x1_S65536 : S65536x1.ShapeCasts S65536
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .bf16 = 32 ∨ (Rect.block (s := S1024x128) S1024x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x128.size a
  hwx0_8 : ∀ i : grid0.Coords, EltTy.bits .bf16 = 32 ∨ (Rect.block (s := S1024x128) S1024x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S65536x128.size a
  hwx0_10 : ∀ i : grid0.Coords, EltTy.bits .f32 = 32 ∨ (Rect.block (s := S65536x128) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S65536x1.size a
  hwx0_11 : ∀ i : grid0.Coords, EltTy.bits .f32 = 32 ∨ (Rect.block (s := S65536x1) S1024x1.size (cc0_transform_11 i) (hinb0_11 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14_0) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_1) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x128 : Shape := ⟨2, ![65536, 128]⟩
abbrev S256x1024 : Shape := ⟨2, ![256, 1024]⟩
abbrev S1024 : Shape := ⟨1, ![1024]⟩
abbrev S1024x1024 : Shape := ⟨2, ![1024, 1024]⟩
abbrev S1024x128 : Shape := ⟨2, ![1024, 128]⟩
abbrev S128 : Shape := ⟨1, ![128]⟩
abbrev S_ : Shape := ⟨0, ![]⟩
abbrev S128x1 : Shape := ⟨2, ![128, 1]⟩
abbrev S65536x1024 : Shape := ⟨2, ![65536, 1024]⟩
abbrev S1x1024 : Shape := ⟨2, ![1, 1024]⟩
abbrev S1x128 : Shape := ⟨2, ![1, 128]⟩
abbrev S65536 : Shape := ⟨1, ![65536]⟩

abbrev nBuf : Space → Nat
  | .hbm => 91
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S1024x128, .f32⟩
  | .hbm, ⟨9, _⟩ => ⟨S128, .f32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S65536x128, .f32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S65536x128, .f32⟩
  | .hbm, ⟨42, _⟩ => ⟨S65536x256, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S1x1024, .f32⟩
  | .hbm, ⟨52, _⟩ => ⟨S65536x1024, .f32⟩
  | .hbm, ⟨53, _⟩ => ⟨S65536x1024, .f32⟩
  | .hbm, ⟨54, _⟩ => ⟨S_, .f32⟩
  | .hbm, ⟨55, _⟩ => ⟨S65536x1024, .f32⟩
  | .hbm, ⟨56, _⟩ => ⟨S65536x1024, .f32⟩
  | .hbm, ⟨57, _⟩ => ⟨S65536x128, .f32⟩
  | .hbm, ⟨58, _⟩ => ⟨S1x128, .f32⟩
  | .hbm, ⟨59, _⟩ => ⟨S65536x128, .f32⟩
  | .hbm, ⟨60, _⟩ => ⟨S65536x128, .f32⟩
  | .hbm, ⟨61, _⟩ => ⟨S65536x128, .f32⟩
  | .hbm, ⟨62, _⟩ => ⟨S65536x128, .f32⟩
  | .hbm, ⟨63, _⟩ => ⟨S1x128, .f32⟩
  | .hbm, ⟨64, _⟩ => ⟨S65536x128, .f32⟩
  | .hbm, ⟨65, _⟩ => ⟨S65536x128, .f32⟩
  | .hbm, ⟨66, _⟩ => ⟨S65536x128, .f32⟩
  | .hbm, ⟨67, _⟩ => ⟨S65536x128, .f32⟩
  | .hbm, ⟨68, _⟩ => ⟨S65536x128, .f32⟩
  | .hbm, ⟨69, _⟩ => ⟨S_, .f32⟩
  | .hbm, ⟨70, _⟩ => ⟨S65536x256, .f32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S65536x256, .f32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S128x1, .i32⟩
  | .hbm, ⟨88, _⟩ => ⟨S65536x256, .f32⟩
  | .hbm, ⟨89, _⟩ => ⟨S_, .f32⟩
  | .hbm, ⟨90, _⟩ => ⟨S65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S65536x128_S65536x128_S65536x256_d1 : Shape.Concatenates [S65536x128, S65536x128] S65536x256 1
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x256 : S_.BroadcastsInDim S65536x256 (![] : Fin 0 → Fin S65536x256.rank)
  reducesTo_S65536x128_S65536_d1 : S65536x128.ReducesTo [1] S65536
  h_S_ : 0 < S_.numel
  gather_S65536x256_S128x1_S65536x128_0_1_n_n_1_1_655361_wf : GatherDims.WF S65536x256 S128x1 S65536x128 [0] [1] [] [1] [] 1 ![65536, 1]
  dot_S65536x256_S256x1024_S65536x1024_1_0_0_1_n_n_wf : DotDims.WF S65536x256 S256x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x128_S65536x128_1_0_0_1_n_n_wf : DotDims.WF S65536x1024 S1024x128 S65536x128 [1] [0] [0] [1] [] []
  scatter_S65536x256_S128x1_S65536x128_0_1_1_1_wf : ScatterDims.WF S65536x256 S128x1 S65536x128 [0] [1] [1] 1

variable [Facts₀]

def gather_S65536x256_S128x1_S65536x128_0_1_n_n_1_1_655361 : GatherDims S65536x256 S128x1 S65536x128 where
  offsetDims := [0]
  collapsedSliceDims := [1]
  operandBatchingDims := []
  startIndicesBatchingDims := []
  startIndexMap := [1]
  indexVectorDim := 1
  sliceSizes := ![65536, 1]
  wf := gather_S65536x256_S128x1_S65536x128_0_1_n_n_1_1_655361_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def scatter_S65536x256_S128x1_S65536x128_0_1_1_1 : ScatterDims S65536x256 S128x1 S65536x128 where
  updateWindowDims := [0]
  insertedWindowDims := [1]
  scatterDimsToOperandDims := [1]
  indexVectorDim := 1
  wf := scatter_S65536x256_S128x1_S65536x128_0_1_1_1_wf

class Facts : Prop extends Facts₀ where

variable [Facts]
-- ==== Proof.Coupling.lean ====
/-
  The affine coupling layer as mathematics, over the extended reals, one batch row at a time.

  A batch row `r` of the input `x : [65536, 256]` is split by parity of the column: the even columns
  `x[r, 2k]` pass through unchanged and, followed by the row of the conditioning input `cond[r, ·]`,
  feed a three-layer perceptron; the odd columns `x[r, 2j+1]` are scaled and shifted by what the
  perceptron computes. With `a` the perceptron's 256 inputs for the row,

    h¹ₙ = max (Σₖ aₖ · W1ₖₙ + b1ₙ) 0          (1024 features)
    h²ₙ = max (Σₖ h¹ₖ · W2ₖₙ + b2ₙ) 0          (1024 features)
    sⱼ  = tanh (Σₖ h²ₖ · Wsₖⱼ + bsⱼ)            (128 log-scales)
    tⱼ  = Σₖ h²ₖ · Wtₖⱼ + btⱼ                   (128 shifts)

  and the results are `out[r, 2j] = x[r, 2j]`, `out[r, 2j+1] = x[r, 2j+1] · exp sⱼ + tⱼ` and
  `logdet[r] = Σⱼ sⱼ`. Every sum is a finite sum in the commutative monoid of extended reals, so
  neither its order nor its grouping matters, and no law beyond that is used anywhere: both programs
  compute these very terms.
-/
import Idealize.ShloMosaic.PureOps.Ideal
import Idealize.ShloMosaic.Lib.ValueIdx

noncomputable section

open scoped BigOperators

namespace Cert.Coupling

open Idealize.ShloMosaic Idealize.ShloMosaic.ValueIdx

/-- A matrix of extended reals over a literal rank-2 index set. -/
abbrev Mat (a b : Nat) : Type := (⟨2, ![a, b]⟩ : Shape).Idx → EReal
/-- A vector of extended reals over a literal rank-1 index set. -/
abbrev Arr (a : Nat) : Type := (⟨1, ![a]⟩ : Shape).Idx → EReal

/-- One output feature of an affine layer: the inner product of the input row with column `n` of the
    weights, plus the bias. -/
def dense {K N : Nat} (a : Fin K → EReal) (W : Fin K → Fin N → EReal) (b : Fin N → EReal) (n : Fin N) : EReal :=
  (∑ k : Fin K, a k * W k n) + b n

/-- The rectifier. -/
def relu (v : EReal) : EReal := max v 0

/-- The second hidden layer of a row's perceptron, from the row's 256 inputs. -/
def hidden (a : Fin 256 → EReal) (W1 : Fin 256 → Fin 1024 → EReal) (b1 : Fin 1024 → EReal)
    (W2 : Fin 1024 → Fin 1024 → EReal) (b2 : Fin 1024 → EReal) (n : Fin 1024) : EReal :=
  relu (dense (fun k => relu (dense a W1 b1 k)) W2 b2 n)

/-- The row's log-scale for its `j`-th transformed column. -/
def logScale (a : Fin 256 → EReal) (W1 : Fin 256 → Fin 1024 → EReal) (b1 : Fin 1024 → EReal)
    (W2 : Fin 1024 → Fin 1024 → EReal) (b2 : Fin 1024 → EReal)
    (Ws : Fin 1024 → Fin 128 → EReal) (bs : Fin 128 → EReal) (j : Fin 128) : EReal :=
  Ideal.tanh (dense (hidden a W1 b1 W2 b2) Ws bs j)

/-- The row's shift for its `j`-th transformed column. -/
def shift (a : Fin 256 → EReal) (W1 : Fin 256 → Fin 1024 → EReal) (b1 : Fin 1024 → EReal)
    (W2 : Fin 1024 → Fin 1024 → EReal) (b2 : Fin 1024 → EReal)
    (Wt : Fin 1024 → Fin 128 → EReal) (bt : Fin 128 → EReal) (j : Fin 128) : EReal :=
  dense (hidden a W1 b1 W2 b2) Wt bt j

/-- A transformed entry: the entry `v` scaled by the exponential of its log-scale, then shifted. -/
def coupled (v : EReal) (a : Fin 256 → EReal) (W1 : Fin 256 → Fin 1024 → EReal) (b1 : Fin 1024 → EReal)
    (W2 : Fin 1024 → Fin 1024 → EReal) (b2 : Fin 1024 → EReal)
    (Ws : Fin 1024 → Fin 128 → EReal) (bs : Fin 128 → EReal)
    (Wt : Fin 1024 → Fin 128 → EReal) (bt : Fin 128 → EReal) (j : Fin 128) : EReal :=
  v * Ideal.exp (logScale a W1 b1 W2 b2 Ws bs j) + shift a W1 b1 W2 b2 Wt bt j

/-- The sum of a row's log-scales. -/
def logDetRow (a : Fin 256 → EReal) (W1 : Fin 256 → Fin 1024 → EReal) (b1 : Fin 1024 → EReal)
    (W2 : Fin 1024 → Fin 1024 → EReal) (b2 : Fin 1024 → EReal)
    (Ws : Fin 1024 → Fin 128 → EReal) (bs : Fin 128 → EReal) : EReal :=
  ∑ j : Fin 128, logScale a W1 b1 W2 b2 Ws bs j

/-- A matrix read by coordinates. -/
abbrev cur {a b : Nat} (M : Mat a b) : Fin a → Fin b → EReal := fun p q => M (ix2 p q)
/-- A vector read by its coordinate. -/
abbrev cur1 {a : Nat} (v : Arr a) : Fin a → EReal := fun p => v (ix1 p)

/-- The perceptron's inputs for batch row `r`: the row's 128 even columns of `x`, then the row of `cond`. -/
def netRow (x : Mat 65536 256) (cond : Mat 65536 128) (r : Fin 65536) (k : Fin 256) : EReal :=
  if h : k.val < 128 then x (ix2 r ⟨2 * k.val, by omega⟩) else cond (ix2 r ⟨k.val - 128, by omega⟩)

/-- The transformed half: entry `(r, j)` is column `2j+1` of row `r`, scaled and shifted. -/
def transformed (x : Mat 65536 256) (cond : Mat 65536 128) (W1 : Mat 256 1024) (b1 : Arr 1024) (W2 : Mat 1024 1024)
    (b2 : Arr 1024) (Ws : Mat 1024 128) (bs : Arr 128) (Wt : Mat 1024 128) (bt : Arr 128) : Mat 65536 128 :=
  fun i => coupled (x (ix2 (i 0) ⟨2 * (i 1).val + 1, by have := (i 1).isLt; simp at this; omega⟩))
    (netRow x cond (i 0)) (cur W1) (cur1 b1) (cur W2) (cur1 b2) (cur Ws) (cur1 bs) (cur Wt) (cur1 bt) (i 1)

/-- The layer's first result: even columns unchanged, odd columns the transformed half. -/
def outArr (x : Mat 65536 256) (cond : Mat 65536 128) (W1 : Mat 256 1024) (b1 : Arr 1024) (W2 : Mat 1024 1024)
    (b2 : Arr 1024) (Ws : Mat 1024 128) (bs : Arr 128) (Wt : Mat 1024 128) (bt : Arr 128) : Mat 65536 256 :=
  fun i => if (i 1).val % 2 = 0 then x i
    else transformed x cond W1 b1 W2 b2 Ws bs Wt bt (ix2 (i 0) ⟨(i 1).val / 2, by have := (i 1).isLt; simp at this; omega⟩)

/-- The layer's second result: per batch row, the sum of its log-scales. -/
def logDet (x : Mat 65536 256) (cond : Mat 65536 128) (W1 : Mat 256 1024) (b1 : Arr 1024) (W2 : Mat 1024 1024)
    (b2 : Arr 1024) (Ws : Mat 1024 128) (bs : Arr 128) : Arr 65536 :=
  fun i => logDetRow (netRow x cond (i 0)) (cur W1) (cur1 b1) (cur W2) (cur1 b2) (cur Ws) (cur1 bs)

end Cert.Coupling

end
-- ==== Proof.KerRows.lean ====
/-
  The kernel body's two stored values, read at an index.

  One grid step of the kernel holds a block of 1024 batch rows. For row `p` of the block, with `a = v0[p, ·]` the
  perceptron's 256 inputs, the body computes the two hidden layers, the log-scales `s = tanh (h² · Ws + bs)` and the
  shifts' product `h² · Wt`, and stores `v38[p, q] · exp s_q + (h² · Wt)_q + bt_q` and the lane sum `Σ_j s_j`. Each
  matrix product into a zero accumulator is, at `(p, n)`, the inner product of row `p` with column `n`; a bias row
  broadcast down the block reads its entry `n`; the format changes are the identity on extended reals. So the two
  stored values are the specification's `coupled` and `logDetRow` of that row, term for term.
-/
import proofs.«125176_j13932873909153_1_alg».proof.Proof.Coupling
import proofs.«125176_j13932873909153_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerValue

open Idealize.ShloMosaic Idealize.ShloMosaic.ValueIdx Idealize.SL.Sem
open Cert.KernelIdeal Cert.KernelIdeal.Gen

/-! ## The three matrix products read at an index -/

/-- The left operand's row coordinate at output index `i` is `i`'s row. -/
theorem lhsA_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- The left operand's column coordinate is the contraction coordinate. -/
theorem lhsA_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's row coordinate is the contraction coordinate. -/
theorem rhsA_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand's column coordinate at output index `i` is `i`'s column. -/
theorem rhsA_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a `[1024, 256]` by a `[256, 1024]` matrix into a zero accumulator, at `(p, n)`: the inner product of row `p` with column `n`. -/
theorem matmulA_apply {φ₁ φ₂ : FTy} (a : FVec Ideal S1024x256 φ₁) (w : FVec Ideal S256x1024 φ₂) (p : Fin 1024) (n : Fin 1024) :
    matmul dot_S1024x256_S256x1024_S1024x1024_1_0_0_1_n_n none a w (constant (F := Ideal) S1024x1024 .f32 0x00000000#32) (ix2 p n)
      = ∑ k : Fin 256, a (ix2 p k) * w (ix2 k n) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p n) ((contrEquiv1 dot_S1024x256_S256x1024_S1024x1024_1_0_0_1_n_n 256 rfl rfl).symm k) = ix2 p k := funext fun ax => Fin.ext (by
    match ax with
    | ⟨0, _⟩ => exact lhsA_0 _ _
    | ⟨1, _⟩ => exact (lhsA_1 _ _).trans hk)
  have er : dot_S1024x256_S256x1024_S1024x1024_1_0_0_1_n_n.rhsIdx (ix2 p n) ((contrEquiv1 dot_S1024x256_S256x1024_S1024x1024_1_0_0_1_n_n 256 rfl rfl).symm k) = ix2 k n := funext fun ax => Fin.ext (by
    match ax with
    | ⟨0, _⟩ => exact (rhsA_0 _ _).trans hk
    | ⟨1, _⟩ => exact rhsA_1 _ _)
  rw [el, er]

/-- The left operand's row coordinate at output index `i` is `i`'s row. -/
theorem lhsB_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column coordinate is the contraction coordinate. -/
theorem lhsB_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row coordinate is the contraction coordinate. -/
theorem rhsB_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column coordinate at output index `i` is `i`'s column. -/
theorem rhsB_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two `[1024, 1024]` matrices into a zero accumulator, at `(p, n)`: the inner product of row `p` with column `n`. -/
theorem matmulB_apply {φ₁ φ₂ : FTy} (a : FVec Ideal S1024x1024 φ₁) (w : FVec Ideal S1024x1024 φ₂) (p : Fin 1024) (n : Fin 1024) :
    matmul dot_S1024x1024_S1024x1024_S1024x1024_1_0_0_1_n_n none a w (constant (F := Ideal) S1024x1024 .f32 0x00000000#32) (ix2 p n)
      = ∑ k : Fin 1024, a (ix2 p k) * w (ix2 k n) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p n) ((contrEquiv1 dot_S1024x1024_S1024x1024_S1024x1024_1_0_0_1_n_n 1024 rfl rfl).symm k) = ix2 p k := funext fun ax => Fin.ext (by
    match ax with
    | ⟨0, _⟩ => exact lhsB_0 _ _
    | ⟨1, _⟩ => exact (lhsB_1 _ _).trans hk)
  have er : dot_S1024x1024_S1024x1024_S1024x1024_1_0_0_1_n_n.rhsIdx (ix2 p n) ((contrEquiv1 dot_S1024x1024_S1024x1024_S1024x1024_1_0_0_1_n_n 1024 rfl rfl).symm k) = ix2 k n := funext fun ax => Fin.ext (by
    match ax with
    | ⟨0, _⟩ => exact (rhsB_0 _ _).trans hk
    | ⟨1, _⟩ => exact rhsB_1 _ _)
  rw [el, er]

/-- The left operand's row coordinate at output index `i` is `i`'s row. -/
theorem lhsC_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The left operand's column coordinate is the contraction coordinate. -/
theorem lhsC_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row coordinate is the contraction coordinate. -/
theorem rhsC_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column coordinate at output index `i` is `i`'s column. -/
theorem rhsC_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a `[1024, 1024]` by a `[1024, 128]` matrix into a zero accumulator, at `(p, n)`: the inner product of row `p` with column `n`. -/
theorem matmulC_apply {φ₁ φ₂ : FTy} (a : FVec Ideal S1024x1024 φ₁) (w : FVec Ideal S1024x128 φ₂) (p : Fin 1024) (n : Fin 128) :
    matmul dot_S1024x1024_S1024x128_S1024x128_1_0_0_1_n_n none a w (constant (F := Ideal) S1024x128 .f32 0x00000000#32) (ix2 p n)
      = ∑ k : Fin 1024, a (ix2 p k) * w (ix2 k n) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p n) ((contrEquiv1 dot_S1024x1024_S1024x128_S1024x128_1_0_0_1_n_n 1024 rfl rfl).symm k) = ix2 p k := funext fun ax => Fin.ext (by
    match ax with
    | ⟨0, _⟩ => exact lhsC_0 _ _
    | ⟨1, _⟩ => exact (lhsC_1 _ _).trans hk)
  have er : dot_S1024x1024_S1024x128_S1024x128_1_0_0_1_n_n.rhsIdx (ix2 p n) ((contrEquiv1 dot_S1024x1024_S1024x128_S1024x128_1_0_0_1_n_n 1024 rfl rfl).symm k) = ix2 k n := funext fun ax => Fin.ext (by
    match ax with
    | ⟨0, _⟩ => exact (rhsC_0 _ _).trans hk
    | ⟨1, _⟩ => exact rhsC_1 _ _)
  rw [el, er]

/-! ## Pointwise and layout steps -/

/-- A hyperbolic tangent of a vector, at an index, is the hyperbolic tangent of the entry. -/
theorem tanh_apply {s : Shape} {φ : FTy} (a : FVec Ideal s φ) (i : s.Idx) :
    Idealize.ShloMosaic.tanh a i = Ideal.tanh (a i) := rfl
/-- An exponential of a vector, at an index, is the exponential of the entry. -/
theorem exp_apply {s : Shape} {φ : FTy} (a : FVec Ideal s φ) (i : s.Idx) :
    Idealize.ShloMosaic.exp a i = Ideal.exp (a i) := rfl
/-- The f32 zero word, as a scalar constant, is the extended real `0`. -/
theorem scalar_zero : (Scalar.ofBits (F := Ideal) .f32 0x00000000#32 : EReal) = 0 := Ideal.ofBits_zero_f32

/-- The sum over the 128 lanes of a `[1024, 128]` array, kept as a `[1024, 1]` column, at row `p`: `Σⱼ x[p, j]`. -/
theorem laneSum_apply (x : FVec Ideal S1024x128 .f32) (hφ : FKind.Formats .f32)
    (hacc : (0x00000000#32 : BitVec 32) = FKind.add.neutral .f32 hφ) (p : Fin 1024) :
    shapeCast S1024x1 (multiReduction (F := Ideal) .add [1] S1024 x 0x00000000#32 reduces_S1024x128_S1024 hφ hacc)
        shapeCasts_S1024_S1024x1 (ix2 p 0)
      = ∑ j : Fin 128, x (ix2 p j) := by
  refine (shapeCast_apply _ shapeCasts_S1024_S1024x1 (ix2 p 0) (ix1 p) ?_).trans ?_
  · rw [Shape.rowMajor_val_two, Shape.rowMajor_val_one]
    show p.val = p.val * 1 + 0
    omega
  · refine (Ideal.multiReduction_add_single x 0x00000000#32 reduces_S1024x128_S1024 hφ hacc (ix1 p)).trans ?_
    refine Finset.sum_congr rfl fun j _ => congrArg x ?_
    funext ax
    match ax with
    | ⟨0, _⟩ => rfl
    | ⟨1, _⟩ => rfl

/-! ## The perceptron's layers at an index -/

/-- The second hidden layer the kernel computes, at `(p, n)`: feature `n` of row `p`'s perceptron. -/
theorem pay3_apply (v0 : Vec Ideal S1024x256 .f32) (v3 : Vec Ideal S256x1024 .bf16) (v6 : Vec Ideal S1x1024 .f32)
    (v13 : Vec Ideal S1024x1024 .bf16) (v16 : Vec Ideal S1x1024 .f32) (p n : Fin 1024) :
    Gen.k0_pay3 v0 v3 v6 v13 v16 (ix2 p n)
      = Cert.Coupling.hidden (fun k => v0 (ix2 p k)) (Cert.Coupling.cur v3) (fun n => v6 (ix2 0 n))
          (Cert.Coupling.cur v13) (fun n => v16 (ix2 0 n)) n := by
  unfold Gen.k0_pay3
  simp only [shapeCast_self, truncf_apply, maximumf_apply, addf_apply, broadcast_apply, matmulA_apply, matmulB_apply,
    broadcastTo_1b_ab_apply, scalar_zero]
  rfl

/-- The log-scales the kernel computes, at `(p, j)`: row `p`'s log-scale for its `j`-th transformed column. -/
theorem pay4_apply (v0 : Vec Ideal S1024x256 .f32) (v3 : Vec Ideal S256x1024 .bf16) (v6 : Vec Ideal S1x1024 .f32)
    (v13 : Vec Ideal S1024x1024 .bf16) (v16 : Vec Ideal S1x1024 .f32) (v23 : Vec Ideal S1024x128 .bf16) (v26 : Vec Ideal S1x128 .f32)
    (p : Fin 1024) (j : Fin 128) :
    Gen.k0_pay4 v0 v3 v6 v13 v16 v23 v26 (ix2 p j)
      = Cert.Coupling.logScale (fun k => v0 (ix2 p k)) (Cert.Coupling.cur v3) (fun n => v6 (ix2 0 n))
          (Cert.Coupling.cur v13) (fun n => v16 (ix2 0 n)) (Cert.Coupling.cur v23) (fun n => v26 (ix2 0 n)) j := by
  unfold Gen.k0_pay4
  simp only [shapeCast_self, tanh_apply, addf_apply, matmulC_apply, broadcastTo_1b_ab_apply, pay3_apply]
  rfl

/-- The shifts' matrix product the kernel computes, at `(p, j)`: the shift of row `p`, column `j`, before its bias. -/
theorem pay5_apply (v0 : Vec Ideal S1024x256 .f32) (v3 : Vec Ideal S256x1024 .bf16) (v6 : Vec Ideal S1x1024 .f32)
    (v13 : Vec Ideal S1024x1024 .bf16) (v16 : Vec Ideal S1x1024 .f32) (v31 : Vec Ideal S1024x128 .bf16)
    (p : Fin 1024) (j : Fin 128) :
    Gen.k0_pay5 v0 v3 v6 v13 v16 v31 (ix2 p j)
      = ∑ k : Fin 1024, Cert.Coupling.hidden (fun k => v0 (ix2 p k)) (Cert.Coupling.cur v3) (fun n => v6 (ix2 0 n))
          (Cert.Coupling.cur v13) (fun n => v16 (ix2 0 n)) k * v31 (ix2 k j) := by
  unfold Gen.k0_pay5
  simp only [shapeCast_self, matmulC_apply, pay3_apply]

/-! ## The two stored values -/

/-- The transformed block the kernel stores, at `(p, q)`: the entry `v38[p, q]` scaled by the exponential of row `p`'s
    `q`-th log-scale and shifted by its `q`-th shift. -/
theorem pay_transformed (v0 : Vec Ideal S1024x256 .f32) (v3 : Vec Ideal S256x1024 .bf16) (v6 : Vec Ideal S1x1024 .f32)
    (v13 : Vec Ideal S1024x1024 .bf16) (v16 : Vec Ideal S1x1024 .f32) (v23 : Vec Ideal S1024x128 .bf16) (v26 : Vec Ideal S1x128 .f32)
    (v31 : Vec Ideal S1024x128 .bf16) (v34 : Vec Ideal S1x128 .f32) (v38 : Vec Ideal S1024x128 .f32) (p : Fin 1024) (q : Fin 128) :
    Gen.k0_pay1 (Gen.k0_pay4 v0 v3 v6 v13 v16 v23 v26) (Gen.k0_pay5 v0 v3 v6 v13 v16 v31) v34 v38 (ix2 p q)
      = Cert.Coupling.coupled (v38 (ix2 p q)) (fun k => v0 (ix2 p k)) (Cert.Coupling.cur v3) (fun n => v6 (ix2 0 n))
          (Cert.Coupling.cur v13) (fun n => v16 (ix2 0 n)) (Cert.Coupling.cur v23) (fun n => v26 (ix2 0 n))
          (Cert.Coupling.cur v31) (fun n => v34 (ix2 0 n)) q := by
  unfold Gen.k0_pay1
  simp only [shapeCast_self, addf_apply, mulf_apply, exp_apply, broadcastTo_1b_ab_apply, pay4_apply, pay5_apply]
  rfl

/-- The log-determinant column the kernel stores, at row `p`: the sum of row `p`'s 128 log-scales. -/
theorem pay_logdet (v0 : Vec Ideal S1024x256 .f32) (v3 : Vec Ideal S256x1024 .bf16) (v6 : Vec Ideal S1x1024 .f32)
    (v13 : Vec Ideal S1024x1024 .bf16) (v16 : Vec Ideal S1x1024 .f32) (v23 : Vec Ideal S1024x128 .bf16) (v26 : Vec Ideal S1x128 .f32)
    (p : Fin 1024) :
    Gen.k0_pay2 (Gen.k0_pay4 v0 v3 v6 v13 v16 v23 v26) (ix2 p 0)
      = Cert.Coupling.logDetRow (fun k => v0 (ix2 p k)) (Cert.Coupling.cur v3) (fun n => v6 (ix2 0 n))
          (Cert.Coupling.cur v13) (fun n => v16 (ix2 0 n)) (Cert.Coupling.cur v23) (fun n => v26 (ix2 0 n)) := by
  unfold Gen.k0_pay2
  refine (laneSum_apply (Gen.k0_pay4 v0 v3 v6 v13 v16 v23 v26) (.inl rfl) rfl p).trans ?_
  unfold Cert.Coupling.logDetRow
  exact Finset.sum_congr rfl fun j _ => pay4_apply v0 v3 v6 v13 v16 v23 v26 p j

end Cert.KernelIdeal.KerValue

end
-- ==== Proof.KerHost.lean ====
/-
  The kernel program's host operations around its region, read at an index.

  Before the region the program splits the first argument `x : [65536, 256]` by parity of the column (view as
  [65536, 128, 2], take a plane of the last axis, drop the unit axis), lays the even columns beside the conditioning
  input, narrows the four weight matrices to bf16 (the identity on extended reals) and lays each bias out as one row.
  After the region it interleaves the even columns with the transformed half (each given a trailing unit axis, laid
  side by side along it, flattened) and flattens the column of row sums. Each is a reading of one entry of an operand.
-/
import proofs.«125176_j13932873909153_1_alg».proof.Proof.Gen.KernelIdeal.Frame
import proofs.«125176_j13932873909153_1_alg».proof.Proof.Coupling
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.KerValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## Layout facts, free of the program's memory -/

/-- A [65536, 256] array viewed as [65536, 128, 2], its plane `o` of the last axis taken and the unit axis
    dropped, reads at `(r, j)` the array's entry `(r, 2 j + o)`: the columns of one parity. -/
theorem parity_cols {α : Type} (o : Nat) (ho : o < 2) (x : S65536x256.Idx → α)
    (h1 : S65536x256.ShapeCasts S65536x128x2) (h2 : S65536x128x2.Slices ![0, 0, o] S65536x128x1)
    (h3 : S65536x128x1.ShapeCasts S65536x128) (r : Fin 65536) (j : Fin 128) :
    shapeCast S65536x128 (extractStridedSlice S65536x128x1 ![0, 0, o] (shapeCast S65536x128x2 x h1) h2) h3 (ix2 r j)
      = x (ix2 r ⟨2 * j.val + o, by omega⟩) := by
  refine (shapeCast_apply _ h3 (ix2 r j) (ix3 r j (0 : Fin 1)) ?_).trans ?_
  · rw [Shape.rowMajor_val_three, Shape.rowMajor_val_two]
    show (r.val * 128 + j.val) * 1 + 0 = r.val * 128 + j.val
    omega
  refine (extractStridedSlice_apply ![0, 0, o] _ h2 (ix3 r j (0 : Fin 1)) (ix3 r j (⟨o, ho⟩ : Fin 2)) ?_).trans ?_
  · intro a
    match a with
    | ⟨0, _⟩ => show r.val = 0 + r.val; omega
    | ⟨1, _⟩ => show j.val = 0 + j.val; omega
    | ⟨2, _⟩ => show o = o + 0; omega
  refine shapeCast_apply x h1 (ix3 r j (⟨o, ho⟩ : Fin 2)) (ix2 r ⟨2 * j.val + o, by omega⟩) ?_
  rw [Shape.rowMajor_val_three, Shape.rowMajor_val_two]
  show r.val * 256 + (2 * j.val + o) = (r.val * 128 + j.val) * 2 + o
  omega

/-- Two [65536, 128] arrays, each given a trailing unit axis, laid side by side along it and flattened to
    [65536, 256], interleave: column `k` of the result is column `k / 2` of the first array when `k` is even and of the
    second when `k` is odd. -/
theorem tail_out {α : Type} (a y : S65536x128.Idx → α) (r : Fin 65536) (k : Fin 256) :
    shapeCast S65536x256 (concatenate S65536x128x2 2 [⟨S65536x128x1, broadcastInDim S65536x128x1 ![0, 1] bcast_S65536x128_S65536x128x1_0_1 a⟩,
        ⟨S65536x128x1, broadcastInDim S65536x128x1 ![0, 1] bcast_S65536x128_S65536x128x1_0_1 y⟩] concatenates_S65536x128x1_S65536x128x1_S65536x128x2_d2)
      shapeCasts_S65536x128x2_S65536x256 (ix2 r k)
      = if k.val % 2 = 0 then a (ix2 r ⟨k.val / 2, by omega⟩) else y (ix2 r ⟨k.val / 2, by omega⟩) := by
  have hbc : ∀ (z : S65536x128.Idx → α) (u : Fin 1),
      broadcastInDim S65536x128x1 ![0, 1] bcast_S65536x128_S65536x128x1_0_1 z (ix3 r (⟨k.val / 2, by omega⟩ : Fin 128) u)
        = z (ix2 r ⟨k.val / 2, by omega⟩) := fun z u =>
    broadcastInDim_apply ![0, 1] bcast_S65536x128_S65536x128x1_0_1 z _ _ (fun b => by
      match b with
      | ⟨0, _⟩ => show r.val = if (65536 : ℕ) = 1 then 0 else r.val; rw [if_neg (by decide)]
      | ⟨1, _⟩ => show k.val / 2 = if (128 : ℕ) = 1 then 0 else k.val / 2; rw [if_neg (by decide)])
  refine (shapeCast_apply _ shapeCasts_S65536x128x2_S65536x256 (ix2 r k)
    (ix3 r (⟨k.val / 2, by omega⟩ : Fin 128) (⟨k.val % 2, by omega⟩ : Fin 2)) ?_).trans ?_
  · rw [Shape.rowMajor_val_three, Shape.rowMajor_val_two]
    show (r.val * 128 + k.val / 2) * 2 + k.val % 2 = r.val * 256 + k.val
    omega
  by_cases hk : k.val % 2 = 0
  · rw [if_pos hk]
    refine (concatenate_pair_apply_left 2 _ _ concatenates_S65536x128x1_S65536x128x1_S65536x128x2_d2 _ rfl
      (ix3 r (⟨k.val / 2, by omega⟩ : Fin 128) (0 : Fin 1)) (fun b => ?_)).trans (hbc a 0)
    match b with
    | ⟨0, _⟩ => rfl
    | ⟨1, _⟩ => rfl
    | ⟨2, _⟩ => show 0 = k.val % 2; omega
  · rw [if_neg hk]
    refine (concatenate_pair_apply_right 2 _ _ concatenates_S65536x128x1_S65536x128x1_S65536x128x2_d2 _ rfl rfl
      (ix3 r (⟨k.val / 2, by omega⟩ : Fin 128) (0 : Fin 1)) (fun b hb => ?_) ?_).trans (hbc y 0)
    · match b with
      | ⟨0, _⟩ => rfl
      | ⟨1, _⟩ => rfl
      | ⟨2, _⟩ => exact absurd rfl hb
    · show 0 + 1 = k.val % 2
      omega

/-- A [65536, 1] column flattened to a vector reads at `r` the column's entry `(r, 0)`. -/
theorem tail_logdet {α : Type} (z : S65536x1.Idx → α) (r : Fin 65536) :
    shapeCast S65536 z shapeCasts_S65536x1_S65536 (ix1 r) = z (ix2 r 0) :=
  shapeCast_apply z shapeCasts_S65536x1_S65536 (ix1 r) (ix2 r (0 : Fin 1)) (by
    rw [Shape.rowMajor_val_two, Shape.rowMajor_val_one]
    show r.val * 1 + 0 = r.val
    omega)

/-! ## The arrays as the region finds them -/

/-- The even columns of the first argument, as the region finds them: entry `(r, j)` is `x[r, 2 j]`. -/
theorem entry_even (c : Dev nD) (r : Fin 65536) (j : Fin 128) :
    (Gen.V m c main_v2 : S65536x128.Idx → EReal) (ix2 r j)
      = m ((c : Thread nD τ).loc main_arg0) (ix2 r ⟨2 * j.val, by omega⟩) := by
  have e : (Gen.V m c main_v2 : S65536x128.Idx → EReal)
      = shapeCast S65536x128 (extractStridedSlice S65536x128x1 ![0, 0, 0]
          (shapeCast S65536x128x2 (m ((c : Thread nD τ).loc main_arg0) : S65536x256.Idx → EReal) shapeCasts_S65536x256_S65536x128x2)
          slices_S65536x128x2_S65536x128x1_0_0_0) shapeCasts_S65536x128x1_S65536x128 := by
    show StableHlo.after hostOps0 (fun b => m (c, b)) (Proc.devRef .tc main_v2) = _
    after_results <;> rfl
  rw [e]
  exact parity_cols 0 (by omega) _ _ _ _ r j

/-- The odd columns of the first argument, as the region finds them: entry `(r, j)` is `x[r, 2 j + 1]`. -/
theorem entry_odd (c : Dev nD) (r : Fin 65536) (j : Fin 128) :
    (Gen.V m c main_v4 : S65536x128.Idx → EReal) (ix2 r j)
      = m ((c : Thread nD τ).loc main_arg0) (ix2 r ⟨2 * j.val + 1, by omega⟩) := by
  have e : (Gen.V m c main_v4 : S65536x128.Idx → EReal)
      = shapeCast S65536x128 (extractStridedSlice S65536x128x1 ![0, 0, 1]
          (shapeCast S65536x128x2 (m ((c : Thread nD τ).loc main_arg0) : S65536x256.Idx → EReal) shapeCasts_S65536x256_S65536x128x2)
          slices_S65536x128x2_S65536x128x1_0_0_1) shapeCasts_S65536x128x1_S65536x128 := by
    show StableHlo.after hostOps0 (fun b => m (c, b)) (Proc.devRef .tc main_v4) = _
    after_results <;> rfl
  rw [e]
  exact parity_cols 1 (by omega) _ _ _ _ r j

/-- The perceptron's inputs as the region finds them: row `r` is the even columns of `x[r, ·]` followed by
    the row of the conditioning input. -/
theorem entry_netin (c : Dev nD) (r : Fin 65536) (k : Fin 256) :
    (Gen.V m c main_v5 : S65536x256.Idx → EReal) (ix2 r k)
      = Cert.Coupling.netRow (m ((c : Thread nD τ).loc main_arg0)) (m ((c : Thread nD τ).loc main_arg1)) r k := by
  have e : (Gen.V m c main_v5 : S65536x256.Idx → EReal)
      = concatenate S65536x256 1 [⟨S65536x128, (Gen.V m c main_v2 : S65536x128.Idx → EReal)⟩,
          ⟨S65536x128, (m ((c : Thread nD τ).loc main_arg1) : S65536x128.Idx → EReal)⟩]
          concatenates_S65536x128_S65536x128_S65536x256_d1 := by
    show StableHlo.after hostOps0 (fun b => m (c, b)) (Proc.devRef .tc main_v5)
      = concatenate S65536x256 1 [⟨S65536x128, StableHlo.after hostOps0 (fun b => m (c, b)) (Proc.devRef .tc main_v2)⟩,
          ⟨S65536x128, (m ((c : Thread nD τ).loc main_arg1) : S65536x128.Idx → EReal)⟩]
          concatenates_S65536x128_S65536x128_S65536x256_d1
    after_results <;> rfl
  rw [e]
  unfold Cert.Coupling.netRow
  by_cases hk : k.val < 128
  · rw [dif_pos hk]
    refine (concatenate_pair_apply_left 1 _ _ concatenates_S65536x128_S65536x128_S65536x256_d1 _ rfl
      (ix2 r (⟨k.val, hk⟩ : Fin 128)) (fun b => ?_)).trans (entry_even m c r ⟨k.val, hk⟩)
    match b with
    | ⟨0, _⟩ => rfl
    | ⟨1, _⟩ => rfl
  · rw [dif_neg hk]
    refine concatenate_pair_apply_right 1 _ _ concatenates_S65536x128_S65536x128_S65536x256_d1 _ rfl rfl
      (ix2 r (⟨k.val - 128, by omega⟩ : Fin 128)) (fun b hb => ?_) ?_
    · match b with
      | ⟨0, _⟩ => rfl
      | ⟨1, _⟩ => exact absurd rfl hb
    · show k.val - 128 + 128 = k.val
      omega

/-- The first layer's weights as the region finds them: the argument itself (narrowing to bf16 is the identity on extended reals). -/
theorem entry_W1 (c : Dev nD) (i : S256x1024.Idx) :
    (Gen.V m c main_v6 : S256x1024.Idx → EReal) i = m ((c : Thread nD τ).loc main_arg2) i := by
  have e : (Gen.V m c main_v6 : S256x1024.Idx → EReal)
      = truncf (F := Ideal) .bf16 (m ((c : Thread nD τ).loc main_arg2)) bitsLt_bf16_f32 := by
    show StableHlo.after hostOps0 (fun b => m (c, b)) (Proc.devRef .tc main_v6) = _
    after_results <;> rfl
  exact congrFun e i

/-- The second layer's weights as the region finds them: the argument itself. -/
theorem entry_W2 (c : Dev nD) (i : S1024x1024.Idx) :
    (Gen.V m c main_v7 : S1024x1024.Idx → EReal) i = m ((c : Thread nD τ).loc main_arg4) i := by
  have e : (Gen.V m c main_v7 : S1024x1024.Idx → EReal)
      = truncf (F := Ideal) .bf16 (m ((c : Thread nD τ).loc main_arg4)) bitsLt_bf16_f32 := by
    show StableHlo.after hostOps0 (fun b => m (c, b)) (Proc.devRef .tc main_v7) = _
    after_results <;> rfl
  exact congrFun e i

/-- The log-scale head's weights as the region finds them: the argument itself. -/
theorem entry_Ws (c : Dev nD) (i : S1024x128.Idx) :
    (Gen.V m c main_v8 : S1024x128.Idx → EReal) i = m ((c : Thread nD τ).loc main_arg6) i := by
  have e : (Gen.V m c main_v8 : S1024x128.Idx → EReal)
      = truncf (F := Ideal) .bf16 (m ((c : Thread nD τ).loc main_arg6)) bitsLt_bf16_f32 := by
    show StableHlo.after hostOps0 (fun b => m (c, b)) (Proc.devRef .tc main_v8) = _
    after_results <;> rfl
  exact congrFun e i

/-- The shift head's weights as the region finds them: the argument itself. -/
theorem entry_Wt (c : Dev nD) (i : S1024x128.Idx) :
    (Gen.V m c main_v9 : S1024x128.Idx → EReal) i = m ((c : Thread nD τ).loc main_arg8) i := by
  have e : (Gen.V m c main_v9 : S1024x128.Idx → EReal)
      = truncf (F := Ideal) .bf16 (m ((c : Thread nD τ).loc main_arg8)) bitsLt_bf16_f32 := by
    show StableHlo.after hostOps0 (fun b => m (c, b)) (Proc.devRef .tc main_v9) = _
    after_results <;> rfl
  exact congrFun e i

/-- The first layer's bias as the region finds it: the argument laid out as one row. -/
theorem entry_b1 (c : Dev nD) (n : Fin 1024) :
    (Gen.V m c main_v10 : S1x1024.Idx → EReal) (ix2 0 n) = m ((c : Thread nD τ).loc main_arg3) (ix1 n) := by
  have e : (Gen.V m c main_v10 : S1x1024.Idx → EReal)
      = shapeCast S1x1024 (m ((c : Thread nD τ).loc main_arg3) : S1024.Idx → EReal) shapeCasts_S1024_S1x1024 := by
    show StableHlo.after hostOps0 (fun b => m (c, b)) (Proc.devRef .tc main_v10) = _
    after_results <;> rfl
  rw [e]
  exact shapeCast_a_1a_apply _ _ 0 n

/-- The second layer's bias as the region finds it: the argument laid out as one row. -/
theorem entry_b2 (c : Dev nD) (n : Fin 1024) :
    (Gen.V m c main_v11 : S1x1024.Idx → EReal) (ix2 0 n) = m ((c : Thread nD τ).loc main_arg5) (ix1 n) := by
  have e : (Gen.V m c main_v11 : S1x1024.Idx → EReal)
      = shapeCast S1x1024 (m ((c : Thread nD τ).loc main_arg5) : S1024.Idx → EReal) shapeCasts_S1024_S1x1024 := by
    show StableHlo.after hostOps0 (fun b => m (c, b)) (Proc.devRef .tc main_v11) = _
    after_results <;> rfl
  rw [e]
  exact shapeCast_a_1a_apply _ _ 0 n

/-- The log-scale head's bias as the region finds it: the argument laid out as one row. -/
theorem entry_bs (c : Dev nD) (n : Fin 128) :
    (Gen.V m c main_v12 : S1x128.Idx → EReal) (ix2 0 n) = m ((c : Thread nD τ).loc main_arg7) (ix1 n) := by
  have e : (Gen.V m c main_v12 : S1x128.Idx → EReal)
      = shapeCast S1x128 (m ((c : Thread nD τ).loc main_arg7) : S128.Idx → EReal) shapeCasts_S128_S1x128 := by
    show StableHlo.after hostOps0 (fun b => m (c, b)) (Proc.devRef .tc main_v12) = _
    after_results <;> rfl
  rw [e]
  exact shapeCast_a_1a_apply _ _ 0 n

/-- The shift head's bias as the region finds it: the argument laid out as one row. -/
theorem entry_bt (c : Dev nD) (n : Fin 128) :
    (Gen.V m c main_v13 : S1x128.Idx → EReal) (ix2 0 n) = m ((c : Thread nD τ).loc main_arg9) (ix1 n) := by
  have e : (Gen.V m c main_v13 : S1x128.Idx → EReal)
      = shapeCast S1x128 (m ((c : Thread nD τ).loc main_arg9) : S128.Idx → EReal) shapeCasts_S128_S1x128 := by
    show StableHlo.after hostOps0 (fun b => m (c, b)) (Proc.devRef .tc main_v13) = _
    after_results <;> rfl
  rw [e]
  exact shapeCast_a_1a_apply _ _ 0 n

end Cert.KernelIdeal.KerValue

end
-- ==== Proof.KerArrays.lean ====
/-
  The two arrays the kernel's region leaves, as functions of the program's arguments.

  The region runs the kernel body at 64 grid points. At point `t` the body sees rows `1024·t … 1024·t + 1023` of the
  perceptron's input array and of the odd-column half of `x`, and every weight and bias whole; it writes the same rows
  of its two outputs. Read at row `p` of the block, what it stores is the layer's formula for batch row `1024·t + p`
  (the body's arithmetic at an index) of the arrays the region finds (each a reshape, slice, concatenation or format
  change of an argument, read at an index). The 64 row blocks are disjoint and cover the 65536 rows, so after the
  region the first output array is the transformed half and the second the log-determinant column.
-/
import proofs.«125176_j13932873909153_1_alg».proof.Proof.Gen.KernelIdeal.Frame
import proofs.«125176_j13932873909153_1_alg».proof.Proof.Coupling
import proofs.«125176_j13932873909153_1_alg».proof.Proof.KerRows
import proofs.«125176_j13932873909153_1_alg».proof.Proof.KerHost
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.Coupling

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the two row-blocked inputs and the two outputs take
    block `t` of their rows at point `t`; every weight and bias window is its whole array at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem point_lt (t : Fin cfg0.N) : t.val < 64 := t.isLt

/-- Window 0's block at point `t` is rows `1024·t … 1024·t + 1023` of the perceptron's input array. -/
theorem blk0_apply (c : Dev nD) (t : Fin cfg0.N) (p : Fin 1024) (k : Fin 256) (r : Fin 65536) (hr : r.val = t.val * 1024 + p.val) :
    (iblk m c 0 t : Vec Ideal S1024x256 .f32) (ix2 p k) = (V m c main_v5 : S65536x256.Idx → EReal) (ix2 r k) := by
  obtain ⟨e0, e1, -⟩ := idx_facts t
  unfold iblk
  rw [View.read_apply]
  show V m c main_v5 _ = V m c main_v5 _
  congr 1
  funext a
  apply Fin.ext
  match a with
  | ⟨0, _⟩ => show win0_0.index t 0 * 1024 + 1 * p.val = r.val; rw [e0, hr]; omega
  | ⟨1, _⟩ => show win0_0.index t 1 * 256 + 1 * k.val = k.val; rw [e1]; omega

/-- Window 1's block at point `t` is rows `1024·t … 1024·t + 1023` of the odd-column half. -/
theorem blk1_apply (c : Dev nD) (t : Fin cfg0.N) (p : Fin 1024) (q : Fin 128) (r : Fin 65536) (hr : r.val = t.val * 1024 + p.val) :
    (iblk m c 1 t : Vec Ideal S1024x128 .f32) (ix2 p q) = (V m c main_v4 : S65536x128.Idx → EReal) (ix2 r q) := by
  have hf := idx_facts t
  have e0 : win0_1.index t (0 : Fin 2) = t.val := hf.2.2.1
  have e1 : win0_1.index t (1 : Fin 2) = 0 := hf.2.2.2.1
  unfold iblk
  rw [View.read_apply]
  show V m c main_v4 _ = V m c main_v4 _
  congr 1
  funext a
  apply Fin.ext
  match a with
  | ⟨0, _⟩ => show win0_1.index t 0 * 1024 + 1 * p.val = r.val; rw [e0, hr]; omega
  | ⟨1, _⟩ => show win0_1.index t 1 * 128 + 1 * q.val = q.val; rw [e1]; omega

/-- Window 2's block at any point is its whole array. -/
theorem blk2_apply (c : Dev nD) (t : Fin cfg0.N) (i : S256x1024.Idx) :
    (iblk m c 2 t : Vec Ideal S256x1024 .bf16) i = (V m c main_v6 : S256x1024.Idx → EReal) i := by
  have hf := idx_facts t
  have e0 : win0_2.index t (0 : Fin 2) = 0 := hf.2.2.2.2.1
  have e1 : win0_2.index t (1 : Fin 2) = 0 := hf.2.2.2.2.2.1
  unfold iblk
  rw [View.read_apply]
  show V m c main_v6 _ = V m c main_v6 _
  congr 1
  funext a
  apply Fin.ext
  match a with
  | ⟨0, _⟩ => show win0_2.index t 0 * 256 + 1 * (i 0).val = (i 0).val; rw [e0]; omega
  | ⟨1, _⟩ => show win0_2.index t 1 * 1024 + 1 * (i 1).val = (i 1).val; rw [e1]; omega

/-- Window 3's block at any point is its whole array. -/
theorem blk3_apply (c : Dev nD) (t : Fin cfg0.N) (i : S1x1024.Idx) :
    (iblk m c 3 t : Vec Ideal S1x1024 .f32) i = (V m c main_v10 : S1x1024.Idx → EReal) i := by
  have hf := idx_facts t
  have e0 : win0_3.index t (0 : Fin 2) = 0 := hf.2.2.2.2.2.2.1
  have e1 : win0_3.index t (1 : Fin 2) = 0 := hf.2.2.2.2.2.2.2.1
  unfold iblk
  rw [View.read_apply]
  show V m c main_v10 _ = V m c main_v10 _
  congr 1
  funext a
  apply Fin.ext
  match a with
  | ⟨0, _⟩ => show win0_3.index t 0 * 1 + 1 * (i 0).val = (i 0).val; rw [e0]; omega
  | ⟨1, _⟩ => show win0_3.index t 1 * 1024 + 1 * (i 1).val = (i 1).val; rw [e1]; omega

/-- Window 4's block at any point is its whole array. -/
theorem blk4_apply (c : Dev nD) (t : Fin cfg0.N) (i : S1024x1024.Idx) :
    (iblk m c 4 t : Vec Ideal S1024x1024 .bf16) i = (V m c main_v7 : S1024x1024.Idx → EReal) i := by
  have hf := idx_facts t
  have e0 : win0_4.index t (0 : Fin 2) = 0 := hf.2.2.2.2.2.2.2.2.1
  have e1 : win0_4.index t (1 : Fin 2) = 0 := hf.2.2.2.2.2.2.2.2.2.1
  unfold iblk
  rw [View.read_apply]
  show V m c main_v7 _ = V m c main_v7 _
  congr 1
  funext a
  apply Fin.ext
  match a with
  | ⟨0, _⟩ => show win0_4.index t 0 * 1024 + 1 * (i 0).val = (i 0).val; rw [e0]; omega
  | ⟨1, _⟩ => show win0_4.index t 1 * 1024 + 1 * (i 1).val = (i 1).val; rw [e1]; omega

/-- Window 5's block at any point is its whole array. -/
theorem blk5_apply (c : Dev nD) (t : Fin cfg0.N) (i : S1x1024.Idx) :
    (iblk m c 5 t : Vec Ideal S1x1024 .f32) i = (V m c main_v11 : S1x1024.Idx → EReal) i := by
  have hf := idx_facts t
  have e0 : win0_5.index t (0 : Fin 2) = 0 := hf.2.2.2.2.2.2.2.2.2.2.1
  have e1 : win0_5.index t (1 : Fin 2) = 0 := hf.2.2.2.2.2.2.2.2.2.2.2.1
  unfold iblk
  rw [View.read_apply]
  show V m c main_v11 _ = V m c main_v11 _
  congr 1
  funext a
  apply Fin.ext
  match a with
  | ⟨0, _⟩ => show win0_5.index t 0 * 1 + 1 * (i 0).val = (i 0).val; rw [e0]; omega
  | ⟨1, _⟩ => show win0_5.index t 1 * 1024 + 1 * (i 1).val = (i 1).val; rw [e1]; omega

/-- Window 6's block at any point is its whole array. -/
theorem blk6_apply (c : Dev nD) (t : Fin cfg0.N) (i : S1024x128.Idx) :
    (iblk m c 6 t : Vec Ideal S1024x128 .bf16) i = (V m c main_v8 : S1024x128.Idx → EReal) i := by
  have hf := idx_facts t
  have e0 : win0_6.index t (0 : Fin 2) = 0 := hf.2.2.2.2.2.2.2.2.2.2.2.2.1
  have e1 : win0_6.index t (1 : Fin 2) = 0 := hf.2.2.2.2.2.2.2.2.2.2.2.2.2.1
  unfold iblk
  rw [View.read_apply]
  show V m c main_v8 _ = V m c main_v8 _
  congr 1
  funext a
  apply Fin.ext
  match a with
  | ⟨0, _⟩ => show win0_6.index t 0 * 1024 + 1 * (i 0).val = (i 0).val; rw [e0]; omega
  | ⟨1, _⟩ => show win0_6.index t 1 * 128 + 1 * (i 1).val = (i 1).val; rw [e1]; omega

/-- Window 7's block at any point is its whole array. -/
theorem blk7_apply (c : Dev nD) (t : Fin cfg0.N) (i : S1x128.Idx) :
    (iblk m c 7 t : Vec Ideal S1x128 .f32) i = (V m c main_v12 : S1x128.Idx → EReal) i := by
  have hf := idx_facts t
  have e0 : win0_7.index t (0 : Fin 2) = 0 := hf.2.2.2.2.2.2.2.2.2.2.2.2.2.2.1
  have e1 : win0_7.index t (1 : Fin 2) = 0 := hf.2.2.2.2.2.2.2.2.2.2.2.2.2.2.2.1
  unfold iblk
  rw [View.read_apply]
  show V m c main_v12 _ = V m c main_v12 _
  congr 1
  funext a
  apply Fin.ext
  match a with
  | ⟨0, _⟩ => show win0_7.index t 0 * 1 + 1 * (i 0).val = (i 0).val; rw [e0]; omega
  | ⟨1, _⟩ => show win0_7.index t 1 * 128 + 1 * (i 1).val = (i 1).val; rw [e1]; omega

/-- Window 8's block at any point is its whole array. -/
theorem blk8_apply (c : Dev nD) (t : Fin cfg0.N) (i : S1024x128.Idx) :
    (iblk m c 8 t : Vec Ideal S1024x128 .bf16) i = (V m c main_v9 : S1024x128.Idx → EReal) i := by
  have hf := idx_facts t
  have e0 : win0_8.index t (0 : Fin 2) = 0 := hf.2.2.2.2.2.2.2.2.2.2.2.2.2.2.2.2.1
  have e1 : win0_8.index t (1 : Fin 2) = 0 := hf.2.2.2.2.2.2.2.2.2.2.2.2.2.2.2.2.2.1
  unfold iblk
  rw [View.read_apply]
  show V m c main_v9 _ = V m c main_v9 _
  congr 1
  funext a
  apply Fin.ext
  match a with
  | ⟨0, _⟩ => show win0_8.index t 0 * 1024 + 1 * (i 0).val = (i 0).val; rw [e0]; omega
  | ⟨1, _⟩ => show win0_8.index t 1 * 128 + 1 * (i 1).val = (i 1).val; rw [e1]; omega

/-- Window 9's block at any point is its whole array. -/
theorem blk9_apply (c : Dev nD) (t : Fin cfg0.N) (i : S1x128.Idx) :
    (iblk m c 9 t : Vec Ideal S1x128 .f32) i = (V m c main_v13 : S1x128.Idx → EReal) i := by
  have hf := idx_facts t
  have e0 : win0_9.index t (0 : Fin 2) = 0 := hf.2.2.2.2.2.2.2.2.2.2.2.2.2.2.2.2.2.2.1
  have e1 : win0_9.index t (1 : Fin 2) = 0 := hf.2.2.2.2.2.2.2.2.2.2.2.2.2.2.2.2.2.2.2.1
  unfold iblk
  rw [View.read_apply]
  show V m c main_v13 _ = V m c main_v13 _
  congr 1
  funext a
  apply Fin.ext
  match a with
  | ⟨0, _⟩ => show win0_9.index t 0 * 1 + 1 * (i 0).val = (i 0).val; rw [e0]; omega
  | ⟨1, _⟩ => show win0_9.index t 1 * 128 + 1 * (i 1).val = (i 1).val; rw [e1]; omega

/-- `coupled` respects equality of each of its arguments. -/
theorem coupled_congr {v v' : EReal} {a a' : Fin 256 → EReal} {W1 W1' : Fin 256 → Fin 1024 → EReal} {b1 b1' : Fin 1024 → EReal}
    {W2 W2' : Fin 1024 → Fin 1024 → EReal} {b2 b2' : Fin 1024 → EReal} {Ws Ws' : Fin 1024 → Fin 128 → EReal} {bs bs' : Fin 128 → EReal}
    {Wt Wt' : Fin 1024 → Fin 128 → EReal} {bt bt' : Fin 128 → EReal} (j : Fin 128)
    (hv : v = v') (ha : a = a') (h1 : W1 = W1') (hb1 : b1 = b1') (h2 : W2 = W2') (hb2 : b2 = b2') (hs : Ws = Ws') (hbs : bs = bs')
    (ht : Wt = Wt') (hbt : bt = bt') :
    coupled v a W1 b1 W2 b2 Ws bs Wt bt j = coupled v' a' W1' b1' W2' b2' Ws' bs' Wt' bt' j := by
  subst hv ha h1 hb1 h2 hb2 hs hbs ht hbt; rfl

/-- `logDetRow` respects equality of each of its arguments. -/
theorem logDetRow_congr {a a' : Fin 256 → EReal} {W1 W1' : Fin 256 → Fin 1024 → EReal} {b1 b1' : Fin 1024 → EReal}
    {W2 W2' : Fin 1024 → Fin 1024 → EReal} {b2 b2' : Fin 1024 → EReal} {Ws Ws' : Fin 1024 → Fin 128 → EReal} {bs bs' : Fin 128 → EReal}
    (ha : a = a') (h1 : W1 = W1') (hb1 : b1 = b1') (h2 : W2 = W2') (hb2 : b2 = b2') (hs : Ws = Ws') (hbs : bs = bs') :
    logDetRow a W1 b1 W2 b2 Ws bs = logDetRow a' W1' b1' W2' b2' Ws' bs' := by
  subst ha h1 hb1 h2 hb2 hs hbs; rfl

/-- The transformed half of the layer's first result, of the argument arrays as launched. -/
abbrev trArr (c : Dev nD) : S65536x128.Idx → EReal := transformed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The layer's second result as the [65536, 1] column the kernel writes. -/
abbrev ldCol (c : Dev nD) : S65536x1.Idx → EReal := fun i => logDet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix1 (i 0))

/-- What point `t` writes back through output window 10 is block `t` of the transformed half: row `p` of the block is
    batch row `1024·t + p`, whose perceptron inputs, odd columns, weights and biases are the point's input blocks. -/
theorem flushed10_eq (c : Dev nD) (t : Fin cfg0.N) :
    (dats m 0 c).flushed 10 t = ((cfg0.win 10).blk t).view.read (Elt Ideal) (trArr m c) := by
  show (cfg0.win 10).cut (grid0.coords t) ((dats m 0 c).after 10 t) = _
  rw [after0_10]
  unfold out0_10
  rw [View.canon_unit_zero hz]
  simp only [View.ld_unit_zero (S := S1024x256) hz, View.ld_unit_zero (S := S1024x128) hz, View.ld_unit_zero (S := S256x1024) hz,
    View.ld_unit_zero (S := S1x1024) hz, View.ld_unit_zero (S := S1024x1024) hz, View.ld_unit_zero (S := S1x128) hz]
  have ht := point_lt t
  have hf := idx_facts t
  have e0 : win0_10.index t (0 : Fin 2) = t.val := hf.2.2.2.2.2.2.2.2.2.2.2.2.2.2.2.2.2.2.2.2.1
  have e1 : win0_10.index t (1 : Fin 2) = 0 := hf.2.2.2.2.2.2.2.2.2.2.2.2.2.2.2.2.2.2.2.2.2.1
  funext j
  have hj0 : (j 0).val < 1024 := (j 0).isLt
  have hj1 : (j 1).val < 128 := (j 1).isLt
  let p : Fin 1024 := ⟨(j 0).val, hj0⟩
  let q : Fin 128 := ⟨(j 1).val, hj1⟩
  let r : Fin 65536 := ⟨t.val * 1024 + (j 0).val, by omega⟩
  have hjpq : j = ix2 p q := by
    funext a; apply Fin.ext
    match a with
    | ⟨0, _⟩ => rfl
    | ⟨1, _⟩ => rfl
  have hemb : ((cfg0.win 10).blk t).view.emb j = ix2 r q := by
    funext a; apply Fin.ext
    match a with
    | ⟨0, _⟩ => show win0_10.index t 0 * 1024 + 1 * (j 0).val = t.val * 1024 + (j 0).val; rw [e0]; omega
    | ⟨1, _⟩ => show win0_10.index t 1 * 128 + 1 * (j 1).val = (j 1).val; rw [e1]; omega
  show k0_pay1 (k0_pay4 (iblk m c 0 t) (iblk m c 2 t) (iblk m c 3 t) (iblk m c 4 t) (iblk m c 5 t) (iblk m c 6 t) (iblk m c 7 t))
      (k0_pay5 (iblk m c 0 t) (iblk m c 2 t) (iblk m c 3 t) (iblk m c 4 t) (iblk m c 5 t) (iblk m c 8 t)) (iblk m c 9 t) (iblk m c 1 t) j
    = trArr m c (((cfg0.win 10).blk t).view.emb j)
  rw [hemb]
  refine (congrArg (k0_pay1 (k0_pay4 (iblk m c 0 t) (iblk m c 2 t) (iblk m c 3 t) (iblk m c 4 t) (iblk m c 5 t) (iblk m c 6 t) (iblk m c 7 t))
      (k0_pay5 (iblk m c 0 t) (iblk m c 2 t) (iblk m c 3 t) (iblk m c 4 t) (iblk m c 5 t) (iblk m c 8 t)) (iblk m c 9 t) (iblk m c 1 t)) hjpq).trans ?_
  refine (pay_transformed (iblk m c 0 t) (iblk m c 2 t) (iblk m c 3 t) (iblk m c 4 t) (iblk m c 5 t) (iblk m c 6 t) (iblk m c 7 t)
      (iblk m c 8 t) (iblk m c 9 t) (iblk m c 1 t) p q).trans ?_
  show coupled _ _ _ _ _ _ _ _ _ _ q = coupled _ _ _ _ _ _ _ _ _ _ q
  refine coupled_congr q ?_ ?_ ?_ ?_ ?_ ?_ ?_ ?_ ?_ ?_
  · exact (blk1_apply m c t p q r rfl).trans (entry_odd m c r q)
  · funext k; exact (blk0_apply m c t p k r rfl).trans (entry_netin m c r k)
  · funext a b; exact (blk2_apply m c t (ix2 a b)).trans (entry_W1 m c (ix2 a b))
  · funext n; exact (blk3_apply m c t (ix2 0 n)).trans (entry_b1 m c n)
  · funext a b; exact (blk4_apply m c t (ix2 a b)).trans (entry_W2 m c (ix2 a b))
  · funext n; exact (blk5_apply m c t (ix2 0 n)).trans (entry_b2 m c n)
  · funext a b; exact (blk6_apply m c t (ix2 a b)).trans (entry_Ws m c (ix2 a b))
  · funext n; exact (blk7_apply m c t (ix2 0 n)).trans (entry_bs m c n)
  · funext a b; exact (blk8_apply m c t (ix2 a b)).trans (entry_Wt m c (ix2 a b))
  · funext n; exact (blk9_apply m c t (ix2 0 n)).trans (entry_bt m c n)

/-- What point `t` writes back through output window 11 is block `t` of the log-determinant column. -/
theorem flushed11_eq (c : Dev nD) (t : Fin cfg0.N) :
    (dats m 0 c).flushed 11 t = ((cfg0.win 11).blk t).view.read (Elt Ideal) (ldCol m c) := by
  show (cfg0.win 11).cut (grid0.coords t) ((dats m 0 c).after 11 t) = _
  rw [after0_11]
  unfold out0_11
  rw [View.canon_unit_zero hz]
  simp only [View.ld_unit_zero (S := S1024x256) hz, View.ld_unit_zero (S := S1024x128) hz, View.ld_unit_zero (S := S256x1024) hz,
    View.ld_unit_zero (S := S1x1024) hz, View.ld_unit_zero (S := S1024x1024) hz, View.ld_unit_zero (S := S1x128) hz]
  have ht := point_lt t
  have hf := idx_facts t
  have e0 : win0_11.index t (0 : Fin 2) = t.val := hf.2.2.2.2.2.2.2.2.2.2.2.2.2.2.2.2.2.2.2.2.2.2.1
  have e1 : win0_11.index t (1 : Fin 2) = 0 := hf.2.2.2.2.2.2.2.2.2.2.2.2.2.2.2.2.2.2.2.2.2.2.2
  funext j
  have hj0 : (j 0).val < 1024 := (j 0).isLt
  have hj1 : (j 1).val < 1 := (j 1).isLt
  let p : Fin 1024 := ⟨(j 0).val, hj0⟩
  let r : Fin 65536 := ⟨t.val * 1024 + (j 0).val, by omega⟩
  have hjp : j = ix2 p 0 := by
    funext a; apply Fin.ext
    match a with
    | ⟨0, _⟩ => rfl
    | ⟨1, _⟩ => show (j 1).val = 0; omega
  have hemb : ((cfg0.win 11).blk t).view.emb j = ix2 r 0 := by
    funext a; apply Fin.ext
    match a with
    | ⟨0, _⟩ => show win0_11.index t 0 * 1024 + 1 * (j 0).val = t.val * 1024 + (j 0).val; rw [e0]; omega
    | ⟨1, _⟩ => show win0_11.index t 1 * 1 + 1 * (j 1).val = 0; rw [e1]; omega
  show k0_pay2 (k0_pay4 (iblk m c 0 t) (iblk m c 2 t) (iblk m c 3 t) (iblk m c 4 t) (iblk m c 5 t) (iblk m c 6 t) (iblk m c 7 t)) j
    = ldCol m c (((cfg0.win 11).blk t).view.emb j)
  rw [hemb]
  refine (congrArg (k0_pay2 (k0_pay4 (iblk m c 0 t) (iblk m c 2 t) (iblk m c 3 t) (iblk m c 4 t) (iblk m c 5 t) (iblk m c 6 t) (iblk m c 7 t))) hjp).trans ?_
  refine (pay_logdet (iblk m c 0 t) (iblk m c 2 t) (iblk m c 3 t) (iblk m c 4 t) (iblk m c 5 t) (iblk m c 6 t) (iblk m c 7 t) p).trans ?_
  show logDetRow _ _ _ _ _ _ _ = logDetRow _ _ _ _ _ _ _
  refine logDetRow_congr ?_ ?_ ?_ ?_ ?_ ?_ ?_
  · funext k; exact (blk0_apply m c t p k r rfl).trans (entry_netin m c r k)
  · funext a b; exact (blk2_apply m c t (ix2 a b)).trans (entry_W1 m c (ix2 a b))
  · funext n; exact (blk3_apply m c t (ix2 0 n)).trans (entry_b1 m c n)
  · funext a b; exact (blk4_apply m c t (ix2 a b)).trans (entry_W2 m c (ix2 a b))
  · funext n; exact (blk5_apply m c t (ix2 0 n)).trans (entry_b2 m c n)
  · funext a b; exact (blk6_apply m c t (ix2 a b)).trans (entry_Ws m c (ix2 a b))
  · funext n; exact (blk7_apply m c t (ix2 0 n)).trans (entry_bs m c n)

/-- An index of the first output array is in point `t`'s block iff each coordinate is in the block's range. -/
theorem mem_blk10 (t : Fin cfg0.N) (i : S65536x128.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v14_0).slice (win0_10.rect t)).set ↔ _
  rw [View.set_slice_whole, Rect.mem_set_unit]
  exact Iff.rfl

/-- The same for the second output array. -/
theorem mem_blk11 (t : Fin cfg0.N) (i : S65536x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v14_1).slice (win0_11.rect t)).set ↔ _
  rw [View.set_slice_whole, Rect.mem_set_unit]
  exact Iff.rfl

/-- Every row of the first output lies in the block of the point `row / 1024`. -/
theorem cover10 (i : S65536x128.Idx) : ∃ t : Fin cfg0.N, (cfg0.win 10).flush t = true ∧ i ∈ ((cfg0.win 10).blk t).view.set := by
  have hi0 : (i 0).val < 65536 := (i 0).isLt
  have hi1 : (i 1).val < 128 := (i 1).isLt
  let t : Fin cfg0.N := ⟨(i 0).val / 1024, show (i 0).val / 1024 < 64 by omega⟩
  have hf := idx_facts t
  have e0 : win0_10.index t (0 : Fin 2) = (i 0).val / 1024 := hf.2.2.2.2.2.2.2.2.2.2.2.2.2.2.2.2.2.2.2.2.1
  have e1 : win0_10.index t (1 : Fin 2) = 0 := hf.2.2.2.2.2.2.2.2.2.2.2.2.2.2.2.2.2.2.2.2.2.1
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; rw [e0]; omega
  | ⟨1, _⟩ => show win0_10.index t (1 : Fin 2) * 128 ≤ (i 1).val ∧ (i 1).val < win0_10.index t (1 : Fin 2) * 128 + 128; rw [e1]; omega

/-- Every row of the second output lies in the block of the point `row / 1024`. -/
theorem cover11 (i : S65536x1.Idx) : ∃ t : Fin cfg0.N, (cfg0.win 11).flush t = true ∧ i ∈ ((cfg0.win 11).blk t).view.set := by
  have hi0 : (i 0).val < 65536 := (i 0).isLt
  have hi1 : (i 1).val < 1 := (i 1).isLt
  let t : Fin cfg0.N := ⟨(i 0).val / 1024, show (i 0).val / 1024 < 64 by omega⟩
  have hf := idx_facts t
  have e0 : win0_11.index t (0 : Fin 2) = (i 0).val / 1024 := hf.2.2.2.2.2.2.2.2.2.2.2.2.2.2.2.2.2.2.2.2.2.2.1
  have e1 : win0_11.index t (1 : Fin 2) = 0 := hf.2.2.2.2.2.2.2.2.2.2.2.2.2.2.2.2.2.2.2.2.2.2.2
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; rw [e0]; omega
  | ⟨1, _⟩ => show win0_11.index t (1 : Fin 2) * 1 ≤ (i 1).val ∧ (i 1).val < win0_11.index t (1 : Fin 2) * 1 + 1; rw [e1]; omega

/-- After the region the first output array is the transformed half. -/
theorem final10 (c : Dev nD) : (dats m 0 c).arrAt 10 cfg0.N = trArr m c :=
  (dats m 0 c).arrAt_eq_of_cover 10 (trArr m c) (fun t _ => flushed10_eq m c t) cover10

/-- After the region the second output array is the log-determinant column. -/
theorem final11 (c : Dev nD) : (dats m 0 c).arrAt 11 cfg0.N = ldCol m c :=
  (dats m 0 c).arrAt_eq_of_cover 11 (ldCol m c) (fun t _ => flushed11_eq m c t) cover11

end Cert.KernelIdeal.KerValue

end
-- ==== Proof.KerRun.lean ====
/-
  The idealized kernel program's run, read to its two results.

  After the region two host stretches remain: the even-column half of `x` (untouched by the region) and the region's
  first output are each given a trailing unit axis, joined along it and flattened, which interleaves them column by
  column — column `2j` from the first, column `2j + 1` from the second —, and the region's second output, a column,
  is flattened to a vector. With the region's outputs known these are the layer's two results.
-/
import proofs.«125176_j13932873909153_1_alg».proof.Proof.KerArrays
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.Coupling

variable (m : (ℓ : Loc nD τ sig) → Buf (Elt Ideal) ℓ) (ρ : Dev nD → PrngReg)

open Idealize.ShloMosaic.StableHlo

/-- What the region leaves at the even-column half, which no window of the region stages: its contents at entry. -/
theorem tail_even (c : Dev nD) :
    Pipeline.withArrays (cfgs 0).spec c (V0 m c) (fun w => (dats m 0 c).arrAt w (cfgs 0).N) (Proc.devRef .tc main_v2) = V m c main_v2 :=
  Pipeline.withArrays_of_ne _ c (V0 m c) _ main_v2 (by exact (by decide : ∀ w, Pipeline.arrRef spec0 w ≠ main_v2))

/-- What the region leaves at its first output array: the transformed half. -/
theorem tail_tr (c : Dev nD) :
    Pipeline.withArrays (cfgs 0).spec c (V0 m c) (fun w => (dats m 0 c).arrAt w (cfgs 0).N) (Proc.devRef .tc main_v14_0) = trArr m c :=
  (Pipeline.withArrays_arr spec0 launch0.win.arr_inj c _ _ 10).trans (final10 m c)

/-- What the region leaves at its second output array: the log-determinant column. -/
theorem tail_ld (c : Dev nD) :
    Pipeline.withArrays (cfgs 0).spec c (V0 m c) (fun w => (dats m 0 c).arrAt w (cfgs 0).N) (Proc.devRef .tc main_v14_1) = ldCol m c :=
  (Pipeline.withArrays_arr spec0 launch0.win.arr_inj c _ _ 11).trans (final11 m c)

/-- The program's first result: the even-column half and the transformed half interleaved column by column. -/
theorem result_out (c : Dev nD) :
    Pipeline.afterTail₀ cfgs (dats m) 0 (V0 m) [hostOps1] c main_v18 = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v18) = _
  after_results
  rw [tail_even, tail_tr]
  funext i
  have hi : i = ix2 (i 0) (i 1) := eq_ix2 (n0 := 65536) (n1 := 256) i
  have hk : (i 1).val < 256 := (i 1).isLt
  rw [hi]
  refine (tail_out (α := EReal) (V m c main_v2) (trArr m c) (i 0) (i 1)).trans ?_
  show _ = if (i 1).val % 2 = 0 then m ((c : Thread nD τ).loc main_arg0) (ix2 (i 0) (i 1)) else trArr m c (ix2 (i 0) ⟨(i 1).val / 2, _⟩)
  by_cases h : (i 1).val % 2 = 0
  · rw [if_pos h, if_pos h]
    refine (entry_even m c (i 0) ⟨(i 1).val / 2, by omega⟩).trans ?_
    congr 1
    funext a; apply Fin.ext
    match a with
    | ⟨0, _⟩ => rfl
    | ⟨1, _⟩ => show 2 * ((i 1).val / 2) = (i 1).val; omega
  · rw [if_neg h, if_neg h]

/-- The program's second result: the log-determinant column as a vector. -/
theorem result_logdet (c : Dev nD) :
    Pipeline.afterTail₀ cfgs (dats m) 0 (V0 m) [hostOps1] c main_v19 = logDet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v19) = _
  after_results
  rw [tail_ld]
  funext i
  have hi : i = ix1 (i 0) := eq_ix1 (n := 65536) i
  rw [hi]
  exact tail_logdet (α := EReal) (ldCol m c) (i 0)

/-- The idealized kernel program's run, read: every weakly fair execution terminates with the two results at the layer's
    two functions of the argument arrays, the arguments unchanged. -/
theorem run : θ_run defs (onTc (τ := τ) (main (F := Ideal))) ⟨m, fun _ => 0, ρ⟩ fun r => ∀ c : Dev nD,
      r.2.mem ((c.tc : Thread nD τ).loc main_v18) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v19) = logDet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v18 (Pipeline.mem_restRefs_of main_v18 (by decide) (by decide))).trans (result_out m c),
      ((h c).2 main_v19 (Pipeline.mem_restRefs_of main_v19 (by decide) (by decide))).trans (result_logdet m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.KerValue

end
-- ==== Proof.RefGather.lean ====
/-
  The reference's index words, its two column gathers and its concatenation, each read at an index.

  The reference takes the even columns of `x` by a gather at the index words `0, 2, 4, …, 254` and the odd
  columns by a gather at `1, 3, 5, …, 255`; each word is computed as `o + 2·j`, wrapped by `+ 256` were it
  negative, which it never is. A gather of whole columns at in-range words reads column `idx[j]` of the same row,
  so the two gathers are `x[r, 2j]` and `x[r, 2j+1]`, and the concatenation of the even columns with the
  conditioning input is the perceptron's input row.
-/
import proofs.«125176_j13932873909153_1_alg».proof.Proof.Coupling
import proofs.«125176_j13932873909153_1_alg».proof.Proof.Gen.ReferenceIdeal.Read

noncomputable section

namespace Cert.ReferenceIdeal.RefValue

open Idealize.ShloMosaic Idealize.ShloMosaic.ValueIdx Idealize.SL.Sem
open Cert.ReferenceIdeal Cert.ReferenceIdeal.Gen Cert.ReferenceIdeal.Read

/-! ## The index words -/

/-- On 32-bit words, for `j < 128`: `0 + 2·j` is not negative as a signed word, so the wrap by `+ 256` is not
    taken and the word is `2j`. -/
theorem word_even (j : Fin 128) :
    Scalar.select (IntOp.cmpi .slt (IntOp.addi 0#32 (IntOp.muli 2#32 (BitVec.ofNat 32 j.val))) 0#32)
      (IntOp.addi (IntOp.addi 0#32 (IntOp.muli 2#32 (BitVec.ofNat 32 j.val))) 256#32)
      (IntOp.addi 0#32 (IntOp.muli 2#32 (BitVec.ofNat 32 j.val))) = BitVec.ofNat 32 (2 * j.val + 0) := by
  revert j; decide +kernel

/-- On 32-bit words, for `j < 128`: `1 + 2·j` is not negative as a signed word, so the wrap by `+ 256` is not
    taken and the word is `2j + 1`. -/
theorem word_odd (j : Fin 128) :
    Scalar.select (IntOp.cmpi .slt (IntOp.addi 1#32 (IntOp.muli 2#32 (BitVec.ofNat 32 j.val))) 0#32)
      (IntOp.addi (IntOp.addi 1#32 (IntOp.muli 2#32 (BitVec.ofNat 32 j.val))) 256#32)
      (IntOp.addi 1#32 (IntOp.muli 2#32 (BitVec.ofNat 32 j.val))) = BitVec.ofNat 32 (2 * j.val + 1) := by
  revert j; decide +kernel

/-- The first gather's `j`-th index word is `2j`. -/
theorem words_v15 {F : FTy → Type} [FloatOps F] (j : Fin 128) :
    Read.val_main_v15 (F := F) (ix2 j 0) = BitVec.ofNat 32 (2 * j.val + 0) := by
  rw [val_main_v15_apply, val_main_v14_apply, val_main_v11_apply, val_main_v13_apply, val_main_v4_apply,
    val_main_v3_apply, val_main_v2_apply, val_main_v1_apply, val_main_v0_apply, val_main_v10_apply, val_main_v12_apply,
    val_main_c_apply, val_main_c_0_apply, val_main_c_3_apply, val_main_c_4_apply]
  exact word_even j

/-- The first scatter's `j`-th index word is `2j`. -/
theorem words_v53 {F : FTy → Type} [FloatOps F] (j : Fin 128) :
    Read.val_main_v53 (F := F) (ix2 j 0) = BitVec.ofNat 32 (2 * j.val + 0) := by
  rw [val_main_v53_apply, val_main_v52_apply, val_main_v49_apply, val_main_v51_apply, val_main_v4_apply,
    val_main_v3_apply, val_main_v2_apply, val_main_v1_apply, val_main_v0_apply, val_main_v48_apply, val_main_v50_apply,
    val_main_c_apply, val_main_c_0_apply, val_main_c_7_apply, val_main_c_8_apply]
  exact word_even j

/-- The second gather's `j`-th index word is `2j + 1`. -/
theorem words_v22 {F : FTy → Type} [FloatOps F] (j : Fin 128) :
    Read.val_main_v22 (F := F) (ix2 j 0) = BitVec.ofNat 32 (2 * j.val + 1) := by
  rw [val_main_v22_apply, val_main_v21_apply, val_main_v18_apply, val_main_v20_apply, val_main_v9_apply,
    val_main_v8_apply, val_main_v7_apply, val_main_v6_apply, val_main_v5_apply, val_main_v17_apply, val_main_v19_apply,
    val_main_c_1_apply, val_main_c_2_apply, val_main_c_5_apply, val_main_c_6_apply]
  exact word_odd j

/-- The second scatter's `j`-th index word is `2j + 1`. -/
theorem words_v60 {F : FTy → Type} [FloatOps F] (j : Fin 128) :
    Read.val_main_v60 (F := F) (ix2 j 0) = BitVec.ofNat 32 (2 * j.val + 1) := by
  rw [val_main_v60_apply, val_main_v59_apply, val_main_v56_apply, val_main_v58_apply, val_main_v9_apply,
    val_main_v8_apply, val_main_v7_apply, val_main_v6_apply, val_main_v5_apply, val_main_v55_apply, val_main_v57_apply,
    val_main_c_1_apply, val_main_c_2_apply, val_main_c_9_apply, val_main_c_10_apply]
  exact word_odd j

/-! ## A gather of whole columns at the words `2j + o` -/

local notation "gd" => gather_S65536x256_S128x1_S65536x128_0_1_n_n_1_1_655361

/-- The gather of whole columns of `x : [65536, 256]` at index words `idx[j] = 2j + o` (`o < 2`, so every word is
    in range and is not clamped) reads, at `(r, j)`, the entry `x[r, 2j + o]`: the row is the offset coordinate, the
    column is the start index. -/
theorem gather_cols {α : Type} (idx : IVec S128x1 32) (o : Nat) (ho : o < 2)
    (hidx : ∀ j : Fin 128, idx (ix2 j 0) = BitVec.ofNat 32 (2 * j.val + o))
    (x : S65536x256.Idx → α) (r : Fin 65536) (j : Fin 128) :
    Host.gather gather_S65536x256_S128x1_S65536x128_0_1_n_n_1_1_655361 x idx (ix2 r j) = x (ix2 r ⟨2 * j.val + o, by omega⟩) := by
  unfold Host.gather
  congr 1
  funext a
  refine Fin.ext ?_
  match a with
  | ⟨0, _⟩ =>
    -- the row axis: no start index, no batching, the result's first coordinate as the offset
    show GatherDims.start gd (ix2 r j) idx 0 + GatherDims.batchCoord gd (ix2 r j) 0 + GatherDims.offCoord gd (ix2 r j) 0 = r.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    -- the column axis: collapsed, so only the start index, read signed and clamped into [0, 255]
    show GatherDims.start gd (ix2 r j) idx 1 + GatherDims.batchCoord gd (ix2 r j) 1 + GatherDims.offCoord gd (ix2 r j) 1 = 2 * j.val + o
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (GatherDims.startIndexMap gd) from List.mem_singleton.mpr rfl)]
    have hsi : GatherDims.siIdx gd (ix2 r j) ⟨List.idxOf (1 : Fin 2) (GatherDims.startIndexMap gd),
        List.idxOf_lt_length_iff.2 (List.mem_singleton.mpr rfl)⟩ = ix2 j 0 := by
      funext b; refine Fin.ext ?_
      match b with
      | ⟨0, _⟩ => rfl
      | ⟨1, _⟩ => rfl
    rw [hsi, hidx j]
    have h1 : (BitVec.ofNat 32 (2 * j.val + o)).toInt = ((2 * j.val + o : Nat) : Int) := by
      rw [BitVec.toInt_eq_toNat_cond, BitVec.toNat_ofNat, Nat.mod_eq_of_lt (by omega), if_pos (by omega)]
    rw [h1, Int.toNat_natCast]
    show min _ (256 - 1) = _
    omega

/-- The reference's first gather is the even columns: entry `(r, j)` is `x[r, 2j]`. -/
theorem gather_even {F : FTy → Type} [FloatOps F] (x0 : (⟨S65536x256, .f32⟩ : BufTy).Contents (Elt F))
    (r : Fin 65536) (j : Fin 128) :
    Read.val_main_v16 (F := F) x0 (ix2 r j) = x0 (ix2 r ⟨2 * j.val, by omega⟩) := by
  unfold val_main_v16
  exact gather_cols (val_main_v15 (F := F)) 0 (by omega) words_v15 x0 r j

/-- The reference's second gather is the odd columns: entry `(r, j)` is `x[r, 2j + 1]`. -/
theorem gather_odd {F : FTy → Type} [FloatOps F] (x0 : (⟨S65536x256, .f32⟩ : BufTy).Contents (Elt F))
    (r : Fin 65536) (j : Fin 128) :
    Read.val_main_v23 (F := F) x0 (ix2 r j) = x0 (ix2 r ⟨2 * j.val + 1, by omega⟩) := by
  unfold val_main_v23
  exact gather_cols (val_main_v22 (F := F)) 1 (by omega) words_v22 x0 r j

/-! ## The concatenation -/

/-- The even columns of `x` followed by the conditioning input: at `(r, k)` the perceptron's `k`-th input for row `r`,
    `x[r, 2k]` for `k < 128` and `cond[r, k − 128]` from there on. -/
theorem concat_netrow (x0 : (⟨S65536x256, .f32⟩ : BufTy).Contents (Elt Ideal)) (x1 : (⟨S65536x128, .f32⟩ : BufTy).Contents (Elt Ideal))
    (r : Fin 65536) (k : Fin 256) : Read.val_main_v24 (F := Ideal) x0 x1 (ix2 r k) = Cert.Coupling.netRow x0 x1 r k := by
  unfold val_main_v24 Cert.Coupling.netRow
  by_cases h : k.val < 128
  · rw [dif_pos h]
    refine (concatenate_pair_apply_left (t := S65536x256) (s₁ := S65536x128) (s₂ := S65536x128) (1 : Fin 2) _ _ _ (ix2 r k) rfl
      (ix2 r (⟨k.val, h⟩ : Fin 128)) ?_).trans ?_
    · intro b
      match b with
      | ⟨0, _⟩ => rfl
      | ⟨1, _⟩ => rfl
    · exact gather_even x0 r ⟨k.val, h⟩
  · rw [dif_neg h]
    refine concatenate_pair_apply_right (t := S65536x256) (s₁ := S65536x128) (s₂ := S65536x128) (1 : Fin 2) _ _ _ (ix2 r k) rfl rfl
      (ix2 r (⟨k.val - 128, by omega⟩ : Fin 128)) ?_ ?_
    · intro b hb
      match b with
      | ⟨0, _⟩ => rfl
      | ⟨1, _⟩ => exact absurd rfl hb
    · show k.val - 128 + 128 = k.val
      omega

end Cert.ReferenceIdeal.RefValue

end
-- ==== Proof.RefChain.lean ====
/-
  The reference program's perceptron chain, read one entry at a time.

  Given that the perceptron's input array has, in row `r`, the 256 entries `netRow x cond r`, every later
  array of the reference program is one of the coupling layer's terms at an index: the first hidden layer
  `max (Σₖ aₖ · W1ₖₙ + b1ₙ) 0`, the second hidden layer, the two heads, and from them the transformed half
  `x[r, 2j+1] · exp sⱼ + tⱼ` and the row sums `Σⱼ sⱼ`. Each step reads one operation at an index; the only
  laws used are that adding the zero initial value of a sum changes nothing and that an index is determined
  by its coordinates.
-/
import proofs.«125176_j13932873909153_1_alg».proof.Proof.Coupling
import proofs.«125176_j13932873909153_1_alg».proof.Proof.Gen.ReferenceIdeal.Read

noncomputable section

open scoped BigOperators

namespace Cert.ReferenceIdeal.RefValue

open Idealize.ShloMosaic Idealize.ShloMosaic.ValueIdx Idealize.SL.Sem
open Cert.ReferenceIdeal Cert.ReferenceIdeal.Gen Cert.ReferenceIdeal.Read
open Cert.Coupling

/-! ## Indices: each operand index of the chain is the index with the evident coordinates -/

private theorem lidx25 (r : Fin 65536) (n : Fin 1024) (k : Fin 256) : lidx_main_v25 (ix2 r n) k = ix2 r k := by
  funext a; match a with | ⟨0, _⟩ => rfl | ⟨1, _⟩ => rfl
private theorem ridx25 (r : Fin 65536) (n : Fin 1024) (k : Fin 256) : ridx_main_v25 (ix2 r n) k = ix2 k n := by
  funext a; match a with | ⟨0, _⟩ => rfl | ⟨1, _⟩ => rfl
private theorem bidx27 (r : Fin 65536) (n : Fin 1024) : idx_main_v26 (idx_main_v27 (ix2 r n)) = ix1 n := by
  funext a; match a with | ⟨0, _⟩ => rfl
private theorem lidx30 (r : Fin 65536) (n : Fin 1024) (k : Fin 1024) : lidx_main_v30 (ix2 r n) k = ix2 r k := by
  funext a; match a with | ⟨0, _⟩ => rfl | ⟨1, _⟩ => rfl
private theorem ridx30 (r : Fin 65536) (n : Fin 1024) (k : Fin 1024) : ridx_main_v30 (ix2 r n) k = ix2 k n := by
  funext a; match a with | ⟨0, _⟩ => rfl | ⟨1, _⟩ => rfl
private theorem bidx32 (r : Fin 65536) (n : Fin 1024) : idx_main_v31 (idx_main_v32 (ix2 r n)) = ix1 n := by
  funext a; match a with | ⟨0, _⟩ => rfl
private theorem lidx35 (r : Fin 65536) (j : Fin 128) (k : Fin 1024) : lidx_main_v35 (ix2 r j) k = ix2 r k := by
  funext a; match a with | ⟨0, _⟩ => rfl | ⟨1, _⟩ => rfl
private theorem ridx35 (r : Fin 65536) (j : Fin 128) (k : Fin 1024) : ridx_main_v35 (ix2 r j) k = ix2 k j := by
  funext a; match a with | ⟨0, _⟩ => rfl | ⟨1, _⟩ => rfl
private theorem bidx37 (r : Fin 65536) (j : Fin 128) : idx_main_v36 (idx_main_v37 (ix2 r j)) = ix1 j := by
  funext a; match a with | ⟨0, _⟩ => rfl
private theorem lidx40 (r : Fin 65536) (j : Fin 128) (k : Fin 1024) : lidx_main_v40 (ix2 r j) k = ix2 r k := by
  funext a; match a with | ⟨0, _⟩ => rfl | ⟨1, _⟩ => rfl
private theorem ridx40 (r : Fin 65536) (j : Fin 128) (k : Fin 1024) : ridx_main_v40 (ix2 r j) k = ix2 k j := by
  funext a; match a with | ⟨0, _⟩ => rfl | ⟨1, _⟩ => rfl
private theorem bidx42 (r : Fin 65536) (j : Fin 128) : idx_main_v41 (idx_main_v42 (ix2 r j)) = ix1 j := by
  funext a; match a with | ⟨0, _⟩ => rfl
private theorem ridx62 (r : Fin 65536) (k : Fin 128) : idx_main_v62 (ix1 r) k = ix2 r k := by
  funext a; match a with | ⟨0, _⟩ => rfl | ⟨1, _⟩ => rfl

/-! ## The layers -/

/-- The reference's first hidden layer at `(r, n)` is `max (Σₖ aₖ · W1ₖₙ + b1ₙ) 0` with `a` the row's perceptron inputs. -/
theorem ref_hidden1 (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal))
    (hnet : ∀ (r : Fin 65536) (k : Fin 256), Read.val_main_v24 (F := Ideal) x0 x1 (ix2 r k) = Cert.Coupling.netRow x0 x1 r k) (r : Fin 65536) (n : Fin 1024) :
    Read.val_main_v29 (F := Ideal) x0 x1 x2 x3 (ix2 r n)
      = relu (dense (netRow x0 x1 r) (cur x2) (cur1 x3) n) := by
  rw [val_main_v29_apply, val_main_v28_apply, val_main_v25_apply, val_main_v27_apply, val_main_v26_apply,
    val_main_call0_v0_apply, val_main_call0_cst_apply, bidx27]
  simp only [Ideal.maximumf_def, Ideal.addf_def, Ideal.ofBits_def, Ideal.ofBits_zero_f32]
  unfold relu dense
  refine congrArg (max · 0) (congrArg (· + x3 (ix1 n)) (Finset.sum_congr rfl fun k _ => ?_))
  rw [lidx25, ridx25, hnet]

/-- The reference's second hidden layer at `(r, n)` is the coupling layer's `hidden` feature `n` of row `r`. -/
theorem ref_hidden2 (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal))
    (hnet : ∀ (r : Fin 65536) (k : Fin 256), Read.val_main_v24 (F := Ideal) x0 x1 (ix2 r k) = Cert.Coupling.netRow x0 x1 r k) (r : Fin 65536) (n : Fin 1024) :
    Read.val_main_v34 (F := Ideal) x0 x1 x2 x3 x4 x5 (ix2 r n)
      = Cert.Coupling.hidden (netRow x0 x1 r) (cur x2) (cur1 x3) (cur x4) (cur1 x5) n := by
  rw [val_main_v34_apply, val_main_v33_apply, val_main_v30_apply, val_main_v32_apply, val_main_v31_apply,
    val_main_call1_v0_apply, val_main_call1_cst_apply, bidx32]
  simp only [Ideal.maximumf_def, Ideal.addf_def, Ideal.ofBits_def, Ideal.ofBits_zero_f32]
  unfold Cert.Coupling.hidden
  refine congrArg (max · 0) (congrArg (· + x5 (ix1 n)) (Finset.sum_congr rfl fun k _ => ?_))
  rw [lidx30, ridx30, ref_hidden1 x0 x1 x2 x3 hnet r k]

/-- The reference's log-scale head at `(r, j)` is the row's log-scale `tanh (Σₖ h²ₖ · Wsₖⱼ + bsⱼ)`. -/
theorem ref_logscale (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal))
    (hnet : ∀ (r : Fin 65536) (k : Fin 256), Read.val_main_v24 (F := Ideal) x0 x1 (ix2 r k) = Cert.Coupling.netRow x0 x1 r k) (r : Fin 65536) (j : Fin 128) :
    Read.val_main_v39 (F := Ideal) x0 x1 x2 x3 x4 x5 x6 x7 (ix2 r j)
      = logScale (netRow x0 x1 r) (cur x2) (cur1 x3) (cur x4) (cur1 x5) (cur x6) (cur1 x7) j := by
  rw [val_main_v39_apply, val_main_v38_apply, val_main_v35_apply, val_main_v37_apply, val_main_v36_apply, bidx37]
  simp only [Ideal.hostUnary_tanh_def, Ideal.addf_def]
  unfold logScale dense
  refine congrArg Ideal.tanh (congrArg (· + x7 (ix1 j)) (Finset.sum_congr rfl fun k _ => ?_))
  rw [lidx35, ridx35, ref_hidden2 x0 x1 x2 x3 x4 x5 hnet r k]

/-- The reference's shift head at `(r, j)` is the row's shift `Σₖ h²ₖ · Wtₖⱼ + btⱼ`. -/
theorem ref_shift (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x8 : (⟨S1024x128, .f32⟩ : BufTy).Contents (Elt Ideal)) (x9 : (⟨S128, .f32⟩ : BufTy).Contents (Elt Ideal))
    (hnet : ∀ (r : Fin 65536) (k : Fin 256), Read.val_main_v24 (F := Ideal) x0 x1 (ix2 r k) = Cert.Coupling.netRow x0 x1 r k) (r : Fin 65536) (j : Fin 128) :
    Read.val_main_v43 (F := Ideal) x0 x1 x2 x3 x4 x5 x8 x9 (ix2 r j)
      = shift (netRow x0 x1 r) (cur x2) (cur1 x3) (cur x4) (cur1 x5) (cur x8) (cur1 x9) j := by
  rw [val_main_v43_apply, val_main_v40_apply, val_main_v42_apply, val_main_v41_apply, bidx42]
  simp only [Ideal.addf_def]
  unfold shift dense
  refine congrArg (· + x9 (ix1 j)) (Finset.sum_congr rfl fun k _ => ?_)
  rw [lidx40, ridx40, ref_hidden2 x0 x1 x2 x3 x4 x5 hnet r k]

/-! ## The two results -/

/-- The reference's transformed half is the coupling layer's: entry `(r, j)` is `x[r, 2j+1] · exp sⱼ + tⱼ`. -/
theorem ref_transformed (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal)) (x8 : (⟨S1024x128, .f32⟩ : BufTy).Contents (Elt Ideal)) (x9 : (⟨S128, .f32⟩ : BufTy).Contents (Elt Ideal))
    (hnet : ∀ (r : Fin 65536) (k : Fin 256), Read.val_main_v24 (F := Ideal) x0 x1 (ix2 r k) = Cert.Coupling.netRow x0 x1 r k)
    (hodd : ∀ (r : Fin 65536) (j : Fin 128), Read.val_main_v23 (F := Ideal) x0 (ix2 r j) = x0 (ix2 r ⟨2 * j.val + 1, by omega⟩)) :
    Read.val_main_v46 (F := Ideal) x0 x1 x2 x3 x4 x5 x6 x7 x8 x9 = Cert.Coupling.transformed x0 x1 x2 x3 x4 x5 x6 x7 x8 x9 := by
  funext i
  obtain ⟨r, j, rfl⟩ : ∃ (r : Fin 65536) (j : Fin 128), i = ix2 r j := ⟨i 0, i 1, eq_ix2 i⟩
  rw [val_main_v46_apply, val_main_v45_apply, val_main_v44_apply, ref_logscale x0 x1 x2 x3 x4 x5 x6 x7 hnet r j,
    ref_shift x0 x1 x2 x3 x4 x5 x8 x9 hnet r j, hodd]
  simp only [Ideal.addf_def, Ideal.mulf_def, Ideal.hostUnary_exp_def]
  rfl

/-- The reference's second result is the coupling layer's: entry `r` is the sum of row `r`'s log-scales. -/
theorem ref_logdet (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal))
    (hnet : ∀ (r : Fin 65536) (k : Fin 256), Read.val_main_v24 (F := Ideal) x0 x1 (ix2 r k) = Cert.Coupling.netRow x0 x1 r k) :
    Read.val_main_v62 (F := Ideal) x0 x1 x2 x3 x4 x5 x6 x7 = Cert.Coupling.logDet x0 x1 x2 x3 x4 x5 x6 x7 := by
  funext i
  obtain ⟨r, rfl⟩ : ∃ r : Fin 65536, i = ix1 r := ⟨i 0, eq_ix1 i⟩
  rw [val_main_v62_apply, val_main_cst_11_apply]
  simp only [Ideal.ofBits_def, Ideal.ofBits_zero_f32, zero_add]
  unfold logDet logDetRow
  refine Finset.sum_congr rfl fun k _ => ?_
  rw [ridx62, ref_logscale x0 x1 x2 x3 x4 x5 x6 x7 hnet r k]

end Cert.ReferenceIdeal.RefValue

end
-- ==== Proof.LibScatterSet.lean ====
/-
  Reading a scatter at an operand index. The scatter is a left fold, over the update indices in
  row-major order, of the step "replace the element at the update's result index"; at a fixed
  operand index the fold only sees the updates that land there.
-/
import Idealize.ShloMosaic.PureOps

namespace Idealize.ShloMosaic.ScatterSet

open Idealize.ShloMosaic

variable {α : Type} {s si u : Shape} {w : Nat}

/-- One step of the scatter's fold: update number `n` replaces the element at its result index. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the left fold of `step` over the update numbers. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land at `i` leaves the element at `i` as it was. -/
theorem step_apply_of_ne (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  cases hr : d.resultIdx? (u.rowMajor.symm n) idx with
  | none => rfl
  | some i0 =>
    have hne : i ≠ i0 := fun e => h (by rw [hr, e])
    simp only [if_neg hne]

/-- A step whose update lands at `i` puts there the body applied to the old element and the update's. -/
theorem step_apply_of_eq (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  simp only [if_true]

/-- Folding steps none of which lands at `i` leaves the element at `i` as it was. -/
theorem foldl_apply_of_forall_ne (d : ScatterDims s si u) (f : α → α → α) (idx : IVec si w) (upd : u.Idx → α)
    (i : s.Idx) (l : List (Fin u.numel)) (x : s.Idx → α)
    (h : ∀ n ∈ l, d.resultIdx? (u.rowMajor.symm n) idx ≠ some i) :
    l.foldl (step d f idx upd) x i = x i := by
  induction l generalizing x with
  | nil => rfl
  | cons n l ih =>
    rw [List.foldl_cons, ih _ (fun m hm => h m (List.mem_cons_of_mem _ hm))]
    exact step_apply_of_ne d f idx upd x n i (h n List.mem_cons_self)

/-- An operand index at which no update lands keeps the operand's element. -/
theorem scatter_apply_of_forall_ne {α : Type} {s si u : Shape} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  rw [scatter_eq_foldl]
  exact foldl_apply_of_forall_ne d f idx upd i _ x (fun n _ => h _)

/-- With the body "take the update", and exactly one update index `j` landing at `i`: folding the
    steps of a list of update numbers gives the update's element when `j`'s number is in the list,
    and the old element when it is not. -/
theorem foldl_set_apply_of_unique (d : ScatterDims s si u) (idx : IVec si w) (upd : u.Idx → α)
    (i : s.Idx) (j : u.Idx) (hj : d.resultIdx? j idx = some i)
    (hu : ∀ j' : u.Idx, d.resultIdx? j' idx = some i → j' = j) (l : List (Fin u.numel)) (x : s.Idx → α) :
    l.foldl (step d (fun _ b => b) idx upd) x i = if u.rowMajor j ∈ l then upd j else x i := by
  induction l generalizing x with
  | nil => simp
  | cons n l ih =>
    rw [List.foldl_cons, ih]
    by_cases hl : u.rowMajor j ∈ l
    · rw [if_pos hl, if_pos (List.mem_cons_of_mem _ hl)]
    · rw [if_neg hl]
      by_cases hn : n = u.rowMajor j
      · subst hn
        rw [if_pos List.mem_cons_self, step_apply_of_eq d _ idx upd x _ i (by rw [Equiv.symm_apply_apply]; exact hj),
          Equiv.symm_apply_apply]
      · have hnm : u.rowMajor j ∉ n :: l := by
          intro hm
          rcases List.mem_cons.1 hm with e | e
          · exact hn e.symm
          · exact hl e
        rw [if_neg hnm]
        refine step_apply_of_ne d _ idx upd x n i ?_
        intro e
        have := hu _ e
        exact hn (by rw [← this, Equiv.apply_symm_apply])

/-- With the body "take the update", an operand index at which exactly one update index `j` lands
    holds that update's element. -/
theorem scatter_set_apply_of_unique {α : Type} {s si u : Shape} {w : Nat} (d : ScatterDims s si u) (x : s.Idx → α)
    (idx : IVec si w) (upd : u.Idx → α) (i : s.Idx) (j : u.Idx) (hj : d.resultIdx? j idx = some i)
    (hu : ∀ j' : u.Idx, d.resultIdx? j' idx = some i → j' = j) :
    Host.scatter d (fun _ b => b) x idx upd i = upd j := by
  rw [scatter_eq_foldl, foldl_set_apply_of_unique d idx upd i j hj hu, if_pos (List.mem_finRange _)]

end Idealize.ShloMosaic.ScatterSet
-- ==== Proof.RefScatter.lean ====
/-
  The reference's scatter read at an index. Its scatter writes, for each of the 128 update columns
  `j`, the whole update column `j` into operand column `idx[j, 0]`; with `idx[j, 0] = 2j + o` the
  operand columns of parity `o` are replaced, column `c` by update column `c / 2`, and the others kept.
-/
import proofs.«125176_j13932873909153_1_alg».proof.Proof.Gen.ReferenceIdeal.Read
import proofs.«125176_j13932873909153_1_alg».proof.Proof.LibScatterSet
import Idealize.ShloMosaic.Lib.ValueIdx

noncomputable section

namespace Cert.ReferenceIdeal.RefValue

open Idealize.ShloMosaic Idealize.ShloMosaic.ValueIdx Idealize.SL.Sem
open Cert.ReferenceIdeal Cert.ReferenceIdeal.Gen Cert.ReferenceIdeal.Read
open Idealize.ShloMosaic.ScatterSet

namespace ScatterAt

/-- The scatter's dimension numbers: update axis 0 is the window axis, going to operand axis 0;
    operand axis 1 is inserted and is the one the start index names. -/
abbrev SD : ScatterDims S65536x256 S128x1 S65536x128 := scatter_S65536x256_S128x1_S65536x128_0_1_1_1

/-- On operand axis 0 the window starts at 0. -/
theorem start_zero (idx : IVec S128x1 32) (j : S65536x128.Idx) : SD.start j idx 0 = 0 := by
  unfold ScatterDims.start
  rw [dif_neg (by decide)]

/-- On operand axis 0 the window coordinate is the update's row. -/
theorem window_zero (j : S65536x128.Idx) : SD.window j 0 = (j 0).val := by
  unfold ScatterDims.window
  rw [dif_pos (by decide)]
  rfl

/-- On operand axis 1 the window starts at the scatter index of the update's column, read signed. -/
theorem start_one (idx : IVec S128x1 32) (r : Fin 65536) (j : Fin 128) :
    SD.start (ix2 r j) idx 1 = (idx (ix2 j 0)).toInt := by
  unfold ScatterDims.start
  rw [dif_pos (by decide)]
  have hsi : SD.siIdx (ix2 r j) ⟨List.idxOf (1 : Fin S65536x256.rank) SD.scatterDimsToOperandDims,
      List.idxOf_lt_length_iff.2 (by decide)⟩ = ix2 j 0 := by
    funext b; refine Fin.ext ?_
    match b with
    | ⟨0, _⟩ => rfl
    | ⟨1, _⟩ => rfl
  rw [hsi]

/-- On operand axis 1, an inserted axis, the window coordinate is 0. -/
theorem window_one (j : S65536x128.Idx) : SD.window j 1 = 0 := by
  unfold ScatterDims.window
  rw [dif_neg (by decide)]

/-- A word below `2 ^ 31` read signed is itself. -/
theorem toInt_ofNat_small (n : Nat) (h : n < 256) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Update index `(r, j)` lands at operand index `(r, 2j + o)`. -/
theorem resultIdx_eq (idx : IVec S128x1 32) (o : Nat) (ho : o < 2)
    (hidx : ∀ j : Fin 128, idx (ix2 j 0) = BitVec.ofNat 32 (2 * j.val + o)) (r : Fin 65536) (j : Fin 128) :
    SD.resultIdx? (ix2 r j) idx = some (ix2 r ⟨2 * j.val + o, by omega⟩) := by
  have h0 : SD.start (ix2 r j) idx 0 + (SD.window (ix2 r j) 0 : Int) = (r.val : Int) := by
    rw [start_zero, window_zero]; simp
  have h1 : SD.start (ix2 r j) idx 1 + (SD.window (ix2 r j) 1 : Int) = ((2 * j.val + o : Nat) : Int) := by
    rw [start_one, window_one, hidx, toInt_ofNat_small _ (by omega)]; simp
  unfold ScatterDims.resultIdx?
  have hall : ∀ a, 0 ≤ SD.start (ix2 r j) idx a + (SD.window (ix2 r j) a : Int) ∧
      SD.start (ix2 r j) idx a + (SD.window (ix2 r j) a : Int) < (S65536x256.size a : Int) := by
    intro a
    match a with
    | ⟨0, _⟩ =>
      show 0 ≤ SD.start (ix2 r j) idx 0 + (SD.window (ix2 r j) 0 : Int) ∧
        SD.start (ix2 r j) idx 0 + (SD.window (ix2 r j) 0 : Int) < ((65536 : Nat) : Int)
      rw [h0]; have := r.isLt; omega
    | ⟨1, _⟩ =>
      show 0 ≤ SD.start (ix2 r j) idx 1 + (SD.window (ix2 r j) 1 : Int) ∧
        SD.start (ix2 r j) idx 1 + (SD.window (ix2 r j) 1 : Int) < ((256 : Nat) : Int)
      rw [h1]; have := j.isLt; omega
  rw [dif_pos hall]
  congr 1
  funext a
  refine Fin.ext ?_
  match a with
  | ⟨0, _⟩ => show (SD.start (ix2 r j) idx 0 + (SD.window (ix2 r j) 0 : Int)).toNat = r.val; rw [h0]; exact Int.toNat_natCast _
  | ⟨1, _⟩ => show (SD.start (ix2 r j) idx 1 + (SD.window (ix2 r j) 1 : Int)).toNat = 2 * j.val + o; rw [h1]; exact Int.toNat_natCast _

end ScatterAt

open ScatterAt in
/-- The scatter at `(r, c)`: the columns of parity `o` hold the update's column `c / 2`, the others
    the operand's own element. -/
theorem scatter_cols {α : Type} (idx : IVec S128x1 32) (o : Nat) (ho : o < 2)
    (hidx : ∀ j : Fin 128, idx (ix2 j 0) = BitVec.ofNat 32 (2 * j.val + o))
    (y : S65536x256.Idx → α) (u : S65536x128.Idx → α) (r : Fin 65536) (c : Fin 256) :
    Host.scatter scatter_S65536x256_S128x1_S65536x128_0_1_1_1 (fun _ b => b) y idx u (ix2 r c)
      = if c.val % 2 = o then u (ix2 r ⟨c.val / 2, by omega⟩) else y (ix2 r c) := by
  by_cases hc : c.val % 2 = o
  · rw [if_pos hc]
    refine scatter_set_apply_of_unique SD y idx u (ix2 r c) (ix2 r ⟨c.val / 2, by omega⟩) ?_ ?_
    · rw [resultIdx_eq idx o ho hidx]
      congr 2
      refine Fin.ext ?_
      show 2 * (c.val / 2) + o = c.val
      omega
    · intro j' hj'
      obtain ⟨a, b, rfl⟩ : ∃ (a : Fin 65536) (b : Fin 128), j' = ix2 a b := ⟨j' 0, j' 1, eq_ix2 j'⟩
      rw [resultIdx_eq idx o ho hidx] at hj'
      have e := Option.some.inj hj'
      have e0 : a = r := congrFun e 0
      have e1 : (⟨2 * b.val + o, by omega⟩ : Fin 256) = c := congrFun e 1
      have e1' : 2 * b.val + o = c.val := congrArg Fin.val e1
      subst e0
      congr 1
      refine Fin.ext ?_
      show b.val = c.val / 2
      omega
  · rw [if_neg hc]
    refine scatter_apply_of_forall_ne SD _ y idx u (ix2 r c) ?_
    intro j' hj'
    obtain ⟨a, b, rfl⟩ : ∃ (a : Fin 65536) (b : Fin 128), j' = ix2 a b := ⟨j' 0, j' 1, eq_ix2 j'⟩
    rw [resultIdx_eq idx o ho hidx] at hj'
    have e := Option.some.inj hj'
    have e1 : (⟨2 * b.val + o, by omega⟩ : Fin 256) = c := congrFun e 1
    have e1' : 2 * b.val + o = c.val := congrArg Fin.val e1
    omega

end Cert.ReferenceIdeal.RefValue

end
-- ==== Proof.RefOut.lean ====
/-
  The reference program's two results are the layer's two functions of its arguments.

  The reference writes its first result by two scatters into a zero array: the even columns of `x` to the even
  columns, then the transformed half to the odd columns. Column `c` of a row is written by exactly one update —
  the first scatter's if `c` is even, the second's if odd — so the result at `(r, c)` is `x[r, c]` for even `c` and the
  transformed entry `(r, c / 2)` for odd `c`; the zero array shows nowhere. Its second result is the row sum of the
  log-scales.
-/
import proofs.«125176_j13932873909153_1_alg».proof.Proof.RefGather
import proofs.«125176_j13932873909153_1_alg».proof.Proof.RefChain
import proofs.«125176_j13932873909153_1_alg».proof.Proof.RefScatter

noncomputable section

open Idealize.ShloMosaic Idealize.ShloMosaic.ValueIdx Idealize.SL.Sem

namespace Cert.ReferenceIdeal.RefValue

open Cert.ReferenceIdeal Cert.ReferenceIdeal.Gen Cert.ReferenceIdeal.Read

/-- The reference's first result is the layer's: even columns of `x` unchanged, odd columns transformed. -/
theorem ref_out (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal)) (x8 : (⟨S1024x128, .f32⟩ : BufTy).Contents (Elt Ideal)) (x9 : (⟨S128, .f32⟩ : BufTy).Contents (Elt Ideal)) :
    Read.val_main_v61 (F := Ideal) x0 x1 x2 x3 x4 x5 x6 x7 x8 x9 = Cert.Coupling.outArr x0 x1 x2 x3 x4 x5 x6 x7 x8 x9 := by
  funext i
  have hi : i = ix2 (i 0) (i 1) := eq_ix2 (n0 := 65536) (n1 := 256) i
  have hk : (i 1).val < 256 := (i 1).isLt
  rw [hi]
  unfold Read.val_main_v61
  refine (scatter_cols (Read.val_main_v60 (F := Ideal)) 1 (by decide) (fun j => words_v60 (F := Ideal) j) _ _ (i 0) (i 1)).trans ?_
  show _ = if (i 1).val % 2 = 0 then x0 (ix2 (i 0) (i 1))
    else Cert.Coupling.transformed x0 x1 x2 x3 x4 x5 x6 x7 x8 x9 (ix2 (i 0) ⟨(i 1).val / 2, _⟩)
  by_cases h : (i 1).val % 2 = 0
  · rw [if_neg (by omega), if_pos h]
    unfold Read.val_main_v54
    refine (scatter_cols (Read.val_main_v53 (F := Ideal)) 0 (by decide) (fun j => words_v53 (F := Ideal) j) _ _ (i 0) (i 1)).trans ?_
    rw [if_pos h]
    refine (gather_even (F := Ideal) x0 (i 0) ⟨(i 1).val / 2, by omega⟩).trans ?_
    congr 1
    funext a; apply Fin.ext
    match a with
    | ⟨0, _⟩ => rfl
    | ⟨1, _⟩ => show 2 * ((i 1).val / 2) = (i 1).val; omega
  · rw [if_pos (by omega), if_neg h,
      ref_transformed x0 x1 x2 x3 x4 x5 x6 x7 x8 x9 (concat_netrow x0 x1) (fun r j => gather_odd (F := Ideal) x0 r j)]

/-- The reference's second result is the layer's: per batch row the sum of its log-scales. -/
theorem ref_ld (x0 : (⟨S65536x256, .f32⟩ : BufTy).Contents (Elt Ideal)) (x1 : (⟨S65536x128, .f32⟩ : BufTy).Contents (Elt Ideal)) (x2 : (⟨S256x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x128, .f32⟩ : BufTy).Contents (Elt Ideal)) (x7 : (⟨S128, .f32⟩ : BufTy).Contents (Elt Ideal)) :
    Read.val_main_v62 (F := Ideal) x0 x1 x2 x3 x4 x5 x6 x7 = Cert.Coupling.logDet x0 x1 x2 x3 x4 x5 x6 x7 :=
  ref_logdet x0 x1 x2 x3 x4 x5 x6 x7 (concat_netrow x0 x1)

end Cert.ReferenceIdeal.RefValue

end
-- ==== Proof.lean ====
/-
  An affine coupling layer, computed by a row-blocked kernel and by a plain array program, are one function of their
  ten arguments over the extended reals.

  Both programs split each batch row of `x` by column parity, feed the even columns and the conditioning row through a
  three-layer perceptron (two rectified layers, then a `tanh` head for the log-scales and a linear head for the
  shifts), scale and shift the odd columns, put the two halves back column by column, and sum each row's log-scales
  (Proof/Coupling.lean states these formulas). The kernel works on 64 blocks of 1024 rows with the weights held whole
  and changes float format on the way, which is the identity here; the reference picks and replaces columns by index
  arrays. Every matrix product on either side is the same finite sum of products, so the two results agree term for
  term and no algebraic law is called on; finiteness of the inputs is not used.

  Proof/KerRows.lean reads the kernel body's arithmetic at an index, Proof/KerHost.lean the host operations around
  its region, Proof/KerArrays.lean and Proof/KerRun.lean the arrays the region leaves and the program's results;
  Proof/RefGather.lean, Proof/RefScatter.lean (over the general Proof/LibScatterSet.lean), Proof/RefChain.lean and
  Proof/RefOut.lean do the same for the reference. The three frames are the generated ones; the idealization changed
  no operation, so there is nothing to preserve.
-/
import proofs.«125176_j13932873909153_1_alg».proof.Defs
import proofs.«125176_j13932873909153_1_alg».proof.Proof.Gen.Kernel
import proofs.«125176_j13932873909153_1_alg».proof.Proof.Gen.Kernel.Skeleton
import proofs.«125176_j13932873909153_1_alg».proof.Proof.Gen.Kernel.Launch
import proofs.«125176_j13932873909153_1_alg».proof.Proof.Gen.Kernel.Points
import proofs.«125176_j13932873909153_1_alg».proof.Proof.Gen.Kernel.Frame
import proofs.«125176_j13932873909153_1_alg».proof.Proof.Gen.KernelIdeal
import proofs.«125176_j13932873909153_1_alg».proof.Proof.Gen.KernelIdeal.Skeleton
import proofs.«125176_j13932873909153_1_alg».proof.Proof.Gen.KernelIdeal.Launch
import proofs.«125176_j13932873909153_1_alg».proof.Proof.Gen.KernelIdeal.Points
import proofs.«125176_j13932873909153_1_alg».proof.Proof.Gen.KernelIdeal.Frame
import proofs.«125176_j13932873909153_1_alg».proof.Proof.Gen.ReferenceIdeal
import proofs.«125176_j13932873909153_1_alg».proof.Proof.Gen.Pre_finite_inputs
import proofs.«125176_j13932873909153_1_alg».proof.Proof.Gen.ReferenceIdeal.Run
import proofs.«125176_j13932873909153_1_alg».proof.Proof.Gen.ReferenceIdeal.Read
import proofs.«125176_j13932873909153_1_alg».proof.Proof.KerRun
import proofs.«125176_j13932873909153_1_alg».proof.Proof.RefOut
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel: nothing to state. -/
theorem preserves : Cert.preserves_Kernel_KernelIdeal := trivial

/-- From memories that agree on the ten arguments both idealized programs end with the layer's two results:
    the kernel program by its run read through the region and the host stretches around it, the reference by its run
    read operation by operation. -/
theorem algebraic : Cert.algebraic_KernelIdeal_ReferenceIdeal := by
  intro m ρ m' ρ' _ hagree
  refine ⟨fun c => Cert.Coupling.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Coupling.logDet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KerValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v61_eq, Cert.ReferenceIdeal.RefValue.ref_out, a0, a1, a2, a3, a4, a5, a6, a7, a8, a9]
  · refine (Cert.ReferenceIdeal.Read.val_main_v62_eq (F := Ideal) _ _ _ _ _ _ _ _).trans ?_
    rw [Cert.ReferenceIdeal.RefValue.ref_ld, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
